-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x224x32 : Shape := ⟨4, ![16, 224, 224, 32]⟩
abbrev S9216 : Shape := ⟨1, ![9216]⟩
abbrev S32 : Shape := ⟨1, ![32]⟩
abbrev S_ : Shape := ⟨0, ![]⟩

class Facts : Prop where
  bcast_S_S16x224x224x32 : S_.BroadcastsInDim S16x224x224x32 (![] : Fin 0 → Fin S16x224x224x32.rank)
  reducesTo_S16x224x224x32_S_d0_1_2_3 : S16x224x224x32.ReducesTo [0, 1, 2, 3] S_
  h_S_ : 0 < S_.numel
  bcast_S_S9216 : S_.BroadcastsInDim S9216 (![] : Fin 0 → Fin S9216.rank)
  reducesTo_S9216_S_d0 : S9216.ReducesTo [0] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x224x224x32 .f32) (main_arg1 : FVec F S9216 .f32) (main_arg2 : FVec F S32 .f32) : IVec S_ 1 :=
  let main_v0 : FVec F S16x224x224x32 .f32 := Host.absf main_arg0
  let main_cst : FVec F S_ .f32 := constant S_ .f32 0x7F800000#32
  let main_v1 : FVec F S16x224x224x32 .f32 := broadcastInDim S16x224x224x32 ![] bcast_S_S16x224x224x32 main_cst
  let main_v2 : IVec S16x224x224x32 1 := cmpf .olt main_v0 main_v1
  let main_c : IVec S_ 1 := constantI S_ 1 1#1
  let main_v3 : IVec S_ 1 := (fun x v => Host.reduce IntOp.andi x v reducesTo_S16x224x224x32_S_d0_1_2_3 h_S_) main_v2 main_c
  let main_v4 : FVec F S9216 .f32 := Host.absf main_arg1
  let main_cst_0 : FVec F S_ .f32 := constant S_ .f32 0x7F800000#32
  let main_v5 : FVec F S9216 .f32 := broadcastInDim S9216 ![] bcast_S_S9216 main_cst_0
  let main_v6 : IVec S9216 1 := cmpf .olt main_v4 main_v5
  let main_c_1 : IVec S_ 1 := constantI S_ 1 1#1
  let main_v7 : IVec S_ 1 := (fun x v => Host.reduce IntOp.andi x v reducesTo_S9216_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x224x224x32 : Shape := ⟨4, ![16, 224, 224, 32]⟩
abbrev S9216 : Shape := ⟨1, ![9216]⟩
abbrev S32 : Shape := ⟨1, ![32]⟩
abbrev S32x3x3x32 : Shape := ⟨4, ![32, 3, 3, 32]⟩
abbrev S3x3x32x32 : Shape := ⟨4, ![3, 3, 32, 32]⟩
abbrev S16x222x222x32 : Shape := ⟨4, ![16, 222, 222, 32]⟩
abbrev S1x37x224x32 : Shape := ⟨4, ![1, 37, 224, 32]⟩
abbrev S1x1x224x32 : Shape := ⟨4, ![1, 1, 224, 32]⟩
abbrev S1x37x222x32 : Shape := ⟨4, ![1, 37, 222, 32]⟩
abbrev S37x224x32 : Shape := ⟨3, ![37, 224, 32]⟩
abbrev S1x224x32 : Shape := ⟨3, ![1, 224, 32]⟩
abbrev S39x224x32 : Shape := ⟨3, ![39, 224, 32]⟩
abbrev S37x222x32 : Shape := ⟨3, ![37, 222, 32]⟩
abbrev S8214x32 : Shape := ⟨2, ![8214, 32]⟩
abbrev S1x1x32x32 : Shape := ⟨4, ![1, 1, 32, 32]⟩
abbrev S32x32 : Shape := ⟨2, ![32, 32]⟩
abbrev S1x1x32 : Shape := ⟨3, ![1, 1, 32]⟩

abbrev nBuf : Space → Nat
  | .hbm => 7
  | .vmem => 10
  | .smem => 0
  | _ => 0

abbrev bufTy : (tb : Table) → Fin (tcTables nBuf tb) → BufTy
  | .hbm, ⟨0, _⟩ => ⟨S16x224x224x32, .f32⟩
  | .hbm, ⟨1, _⟩ => ⟨S9216, .f32⟩
  | .hbm, ⟨2, _⟩ => ⟨S32, .f32⟩
  | .hbm, ⟨3, _⟩ => ⟨S32x3x3x32, .f32⟩
  | .hbm, ⟨4, _⟩ => ⟨S3x3x32x32, .f32⟩
  | .hbm, ⟨5, _⟩ => ⟨S3x3x32x32, .bf16⟩
  | .hbm, ⟨6, _⟩ => ⟨S16x222x222x32, .f32⟩
  | .local _ .vmem, ⟨0, _⟩ => ⟨S1x37x224x32, .f32⟩
  | .local _ .vmem, ⟨1, _⟩ => ⟨S1x37x224x32, .f32⟩
  | .local _ .vmem, ⟨2, _⟩ => ⟨S1x1x224x32, .f32⟩
  | .local _ .vmem, ⟨3, _⟩ => ⟨S1x1x224x32, .f32⟩
  | .local _ .vmem, ⟨4, _⟩ => ⟨S1x1x224x32, .f32⟩
  | .local _ .vmem, ⟨5, _⟩ => ⟨S1x1x224x32, .f32⟩
  | .local _ .vmem, ⟨6, _⟩ => ⟨S3x3x32x32, .bf16⟩
  | .local _ .vmem, ⟨7, _⟩ => ⟨S32, .f32⟩
  | .local _ .vmem, ⟨8, _⟩ => ⟨S1x37x222x32, .f32⟩
  | .local _ .vmem, ⟨9, _⟩ => ⟨S1x37x222x32, .f32⟩
  | _, _ => ⟨S16x224x224x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c37_i32 : BitVec 32 := 37#32
  let v1 : BitVec 32 := Scalar.muli v0 c37_i32
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c37_i32 : BitVec 32 := 37#32
  let v1 : BitVec 32 := Scalar.muli v0 c37_i32
  let c1_i32_0 : BitVec 32 := 1#32
  let v2 : BitVec 32 := Scalar.addi v1 c1_i32_0
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x37x224x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x224x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x224x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x37x222x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S9216_S32x3x3x32 : S9216.ShapeCasts S32x3x3x32
  transposes_S32x3x3x32_S3x3x32x32_1_2_3_0 : S32x3x3x32.Transposes [1, 2, 3, 0] S3x3x32x32
  bitsLt_bf16_f32 : FTy.bits .bf16 < FTy.bits .f32
  inb_S1x37x224x32_S1x37x224x32_0_0_0_0 : ∀ a, (![0, 0, 0, 0] : Fin 4 → Nat) a + S1x37x224x32.size a ≤ S1x37x224x32.size a
  h_S1x37x224x32 : 0 < S1x37x224x32.numel
  shapeCasts_S1x37x224x32_S37x224x32 : S1x37x224x32.ShapeCasts S37x224x32
  inb_S1x1x224x32_S1x1x224x32_0_0_0_0 : ∀ a, (![0, 0, 0, 0] : Fin 4 → Nat) a + S1x1x224x32.size a ≤ S1x1x224x32.size a
  h_S1x1x224x32 : 0 < S1x1x224x32.numel
  shapeCasts_S1x1x224x32_S1x224x32 : S1x1x224x32.ShapeCasts S1x224x32
  concatenates_S37x224x32_S1x224x32_S1x224x32_S39x224x32_d0 : Shape.Concatenates [S37x224x32, S1x224x32, S1x224x32] S39x224x32 0
  slices_S39x224x32_o0_0_0_S37x222x32 : S39x224x32.Slices ![0, 0, 0] S37x222x32
  shapeCasts_S37x222x32_S8214x32 : S37x222x32.ShapeCasts S8214x32
  inb_S3x3x32x32_S1x1x32x32_0_0_0_0 : ∀ a, (![0, 0, 0, 0] : Fin 4 → Nat) a + S1x1x32x32.size a ≤ S3x3x32x32.size a
  h_S1x1x32x32 : 0 < S1x1x32x32.numel
  shapeCasts_S1x1x32x32_S32x32 : S1x1x32x32.ShapeCasts S32x32
  shapeCasts_S8214x32_S37x222x32 : S8214x32.ShapeCasts S37x222x32
  slices_S39x224x32_o0_1_0_S37x222x32 : S39x224x32.Slices ![0, 1, 0] S37x222x32
  inb_S3x3x32x32_S1x1x32x32_0_1_0_0 : ∀ a, (![0, 1, 0, 0] : Fin 4 → Nat) a + S1x1x32x32.size a ≤ S3x3x32x32.size a
  slices_S39x224x32_o0_2_0_S37x222x32 : S39x224x32.Slices ![0, 2, 0] S37x222x32
  inb_S3x3x32x32_S1x1x32x32_0_2_0_0 : ∀ a, (![0, 2, 0, 0] : Fin 4 → Nat) a + S1x1x32x32.size a ≤ S3x3x32x32.size a
  slices_S39x224x32_o1_0_0_S37x222x32 : S39x224x32.Slices ![1, 0, 0] S37x222x32
  inb_S3x3x32x32_S1x1x32x32_1_0_0_0 : ∀ a, (![1, 0, 0, 0] : Fin 4 → Nat) a + S1x1x32x32.size a ≤ S3x3x32x32.size a
  slices_S39x224x32_o1_1_0_S37x222x32 : S39x224x32.Slices ![1, 1, 0] S37x222x32
  inb_S3x3x32x32_S1x1x32x32_1_1_0_0 : ∀ a, (![1, 1, 0, 0] : Fin 4 → Nat) a + S1x1x32x32.size a ≤ S3x3x32x32.size a
  slices_S39x224x32_o1_2_0_S37x222x32 : S39x224x32.Slices ![1, 2, 0] S37x222x32
  inb_S3x3x32x32_S1x1x32x32_1_2_0_0 : ∀ a, (![1, 2, 0, 0] : Fin 4 → Nat) a + S1x1x32x32.size a ≤ S3x3x32x32.size a
  slices_S39x224x32_o2_0_0_S37x222x32 : S39x224x32.Slices ![2, 0, 0] S37x222x32
  inb_S3x3x32x32_S1x1x32x32_2_0_0_0 : ∀ a, (![2, 0, 0, 0] : Fin 4 → Nat) a + S1x1x32x32.size a ≤ S3x3x32x32.size a
  slices_S39x224x32_o2_1_0_S37x222x32 : S39x224x32.Slices ![2, 1, 0] S37x222x32
  inb_S3x3x32x32_S1x1x32x32_2_1_0_0 : ∀ a, (![2, 1, 0, 0] : Fin 4 → Nat) a + S1x1x32x32.size a ≤ S3x3x32x32.size a
  slices_S39x224x32_o2_2_0_S37x222x32 : S39x224x32.Slices ![2, 2, 0] S37x222x32
  inb_S3x3x32x32_S1x1x32x32_2_2_0_0 : ∀ a, (![2, 2, 0, 0] : Fin 4 → Nat) a + S1x1x32x32.size a ≤ S3x3x32x32.size a
  inb_S32_S32_0 : ∀ a, (![0] : Fin 1 → Nat) a + S32.size a ≤ S32.size a
  h_S32 : 0 < S32.numel
  shapeCasts_S32_S1x1x32 : S32.ShapeCasts S1x1x32
  broadcasts_S1x1x32_S37x222x32 : S1x1x32.Broadcasts S37x222x32
  inb_S1x37x222x32_S1x37x222x32_0_0_0_0 : ∀ a, (![0, 0, 0, 0] : Fin 4 → Nat) a + S1x37x222x32.size a ≤ S1x37x222x32.size a
  h_S1x37x222x32 : 0 < S1x37x222x32.numel
  shapeCasts_S1x37x222x32_S37x222x32 : S1x37x222x32.ShapeCasts S37x222x32
  shapeCasts_S37x222x32_S1x37x222x32 : S37x222x32.ShapeCasts S1x37x222x32
  dot_S8214x32_S32x32_S8214x32_1_0_0_1_n_n_wf : DotDims.WF S8214x32 S32x32 S8214x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x37x224x32.size a < S16x224x224x32.size a
  hwx0_0 : ∀ i : grid0.Coords, EltTy.bits .f32 = 32 ∨ (Rect.unit (s := S16x224x224x32) (fun a => cc0_transform_0 i a * S1x37x224x32.size a) (fun a => (Pipeline.Clip.of (cc0_transform_0 i a) (S1x37x224x32.size a) (S16x224x224x32.size a)).extent (S1x37x224x32.size a)) fun a => Pipeline.Clip.inb (Pipeline.Clip.ok_of (hstart0_0 i a))).WholeWords (EltTy.packing .f32)
  hwxs0_0 : ∀ i : grid0.Coords, EltTy.bits .f32 = 32 ∨ (Rect.unit (s := S1x37x224x32) (fun _ => 0) (fun a => (Pipeline.Clip.of (cc0_transform_0 i a) (S1x37x224x32.size a) (S16x224x224x32.size a)).extent (S1x37x224x32.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x224x32.size a ≤ S16x224x224x32.size a
  hwx0_1 : ∀ i : grid0.Coords, EltTy.bits .f32 = 32 ∨ (Rect.block (s := S16x224x224x32) S1x1x224x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x224x32.size a ≤ S16x224x224x32.size a
  hwx0_2 : ∀ i : grid0.Coords, EltTy.bits .f32 = 32 ∨ (Rect.block (s := S16x224x224x32) S1x1x224x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3x32x32.size a ≤ S3x3x32x32.size a
  hwx0_3 : ∀ i : grid0.Coords, EltTy.bits .bf16 = 32 ∨ (Rect.block (s := S3x3x32x32) S3x3x32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x37x222x32.size a ≤ S16x222x222x32.size a
  hwx0_5 : ∀ i : grid0.Coords, EltTy.bits .f32 = 32 ∨ (Rect.block (s := S16x222x222x32) S1x37x222x32.size (cc0_transform_5 i) (hinb0_5 i)).WholeWords (EltTy.packing .f32)

variable [Facts₀]

def dot_S8214x32_S32x32_S8214x32_1_0_0_1_n_n : DotDims S8214x32 S32x32 S8214x32 where
  lhsContracting := [1]
  rhsContracting := [0]
  lhsNonContracting := [0]
  rhsNonContracting := [1]
  lhsBatch := []
  rhsBatch := []
  wf := dot_S8214x32_S32x32_S8214x32_1_0_0_1_n_n_wf

abbrev win0_0 : Pipeline.Window sig grid0 :=
  Pipeline.Window.ofSpecClip (Memref.whole main_arg0) S1x37x224x32.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S1x1x224x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x224x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x3x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x37x222x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x224x224x32 : Shape := ⟨4, ![16, 224, 224, 32]⟩
abbrev S9216 : Shape := ⟨1, ![9216]⟩
abbrev S32 : Shape := ⟨1, ![32]⟩
abbrev S16x222x222x32 : Shape := ⟨4, ![16, 222, 222, 32]⟩
abbrev S16x222x222x288 : Shape := ⟨4, ![16, 222, 222, 288]⟩
abbrev S32x288 : Shape := ⟨2, ![32, 288]⟩
abbrev S1x1x1x32 : Shape := ⟨4, ![1, 1, 1, 32]⟩

abbrev nBuf : Space → Nat
  | .hbm => 18
  | .vmem => 0
  | .smem => 0
  | _ => 0

abbrev bufTy : (tb : Table) → Fin (tcTables nBuf tb) → BufTy
  | .hbm, ⟨0, _⟩ => ⟨S16x224x224x32, .f32⟩
  | .hbm, ⟨1, _⟩ => ⟨S9216, .f32⟩
  | .hbm, ⟨2, _⟩ => ⟨S32, .f32⟩
  | .hbm, ⟨3, _⟩ => ⟨S16x222x222x32, .f32⟩
  | .hbm, ⟨4, _⟩ => ⟨S16x222x222x32, .f32⟩
  | .hbm, ⟨5, _⟩ => ⟨S16x222x222x32, .f32⟩
  | .hbm, ⟨6, _⟩ => ⟨S16x222x222x32, .f32⟩
  | .hbm, ⟨7, _⟩ => ⟨S16x222x222x32, .f32⟩
  | .hbm, ⟨8, _⟩ => ⟨S16x222x222x32, .f32⟩
  | .hbm, ⟨9, _⟩ => ⟨S16x222x222x32, .f32⟩
  | .hbm, ⟨10, _⟩ => ⟨S16x222x222x32, .f32⟩
  | .hbm, ⟨11, _⟩ => ⟨S16x222x222x32, .f32⟩
  | .hbm, ⟨12, _⟩ => ⟨S16x222x222x288, .f32⟩
  | .hbm, ⟨13, _⟩ => ⟨S32x288, .f32⟩
  | .hbm, ⟨14, _⟩ => ⟨S16x222x222x32, .f32⟩
  | .hbm, ⟨15, _⟩ => ⟨S1x1x1x32, .f32⟩
  | .hbm, ⟨16, _⟩ => ⟨S16x222x222x32, .f32⟩
  | .hbm, ⟨17, _⟩ => ⟨S16x222x222x32, .f32⟩
  | _, _ => ⟨S16x224x224x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  slices_S16x224x224x32_S16x222x222x32_0_0_0_0 : S16x224x224x32.Slices ![0, 0, 0, 0] S16x222x222x32
  slices_S16x224x224x32_S16x222x222x32_0_0_1_0 : S16x224x224x32.Slices ![0, 0, 1, 0] S16x222x222x32
  slices_S16x224x224x32_S16x222x222x32_0_0_2_0 : S16x224x224x32.Slices ![0, 0, 2, 0] S16x222x222x32
  slices_S16x224x224x32_S16x222x222x32_0_1_0_0 : S16x224x224x32.Slices ![0, 1, 0, 0] S16x222x222x32
  slices_S16x224x224x32_S16x222x222x32_0_1_1_0 : S16x224x224x32.Slices ![0, 1, 1, 0] S16x222x222x32
  slices_S16x224x224x32_S16x222x222x32_0_1_2_0 : S16x224x224x32.Slices ![0, 1, 2, 0] S16x222x222x32
  slices_S16x224x224x32_S16x222x222x32_0_2_0_0 : S16x224x224x32.Slices ![0, 2, 0, 0] S16x222x222x32
  slices_S16x224x224x32_S16x222x222x32_0_2_1_0 : S16x224x224x32.Slices ![0, 2, 1, 0] S16x222x222x32
  slices_S16x224x224x32_S16x222x222x32_0_2_2_0 : S16x224x224x32.Slices ![0, 2, 2, 0] S16x222x222x32
  concatenates_S16x222x222x32_S16x222x222x32_S16x222x222x32_S16x222x222x32_S16x222x222x32_S16x222x222x32_S16x222x222x32_S16x222x222x32_S16x222x222x32_S16x222x222x288_d3 : Shape.Concatenates [S16x222x222x32, S16x222x222x32, S16x222x222x32, S16x222x222x32, S16x222x222x32, S16x222x222x32, S16x222x222x32, S16x222x222x32, S16x222x222x32] S16x222x222x288 3
  shapeCasts_S9216_S32x288 : S9216.ShapeCasts S32x288
  bcast_S32_S1x1x1x32_3 : S32.BroadcastsInDim S1x1x1x32 (![3] : Fin 1 → Fin S1x1x1x32.rank)
  bcast_S1x1x1x32_S16x222x222x32_0_1_2_3 : S1x1x1x32.BroadcastsInDim S16x222x222x32 (![0, 1, 2, 3] : Fin 4 → Fin S16x222x222x32.rank)
  dot_S16x222x222x288_S32x288_S16x222x222x32_3_1_012_0_n_n_wf : DotDims.WF S16x222x222x288 S32x288 S16x222x222x32 [3] [1] [0, 1, 2] [0] [] []

variable [Facts₀]

def dot_S16x222x222x288_S32x288_S16x222x222x32_3_1_012_0_n_n : DotDims S16x222x222x288 S32x288 S16x222x222x32 where
  lhsContracting := [3]
  rhsContracting := [1]
  lhsNonContracting := [0, 1, 2]
  rhsNonContracting := [0]
  lhsBatch := []
  rhsBatch := []
  wf := dot_S16x222x222x288_S32x288_S16x222x222x32_3_1_012_0_n_n_wf

class Facts : Prop extends Facts₀ where

variable [Facts]
-- ==== Proof.K.Stored.lean ====
/-
  What the kernel body stores, as one function of what its loads read.

  The body reads a block of 37 image rows and the two rows below it, joins them into 39 rows, and for each of the
  nine taps multiplies the 37x222 window of that tap (as a matrix of 8214 pixels by 32 channels) by the tap's
  32x32 weight matrix, adding the nine products up from zero; then it adds the bias along the channel axis.
  `stored` is that value over the five things read: the block, the two rows, the nine weight matrices and the bias.
  `rows39` names the joined rows entry by entry: rows 0..36 come from the block, row 37 and row 38 from the two
  single rows.
-/
import proofs.«117001_j77816217469233_1_alg».proof.Proof.Gen.Kernel.Skeleton
import Idealize.ShloMosaic.Lib.ValueIdx

noncomputable section

namespace Cert.Kernel.Conv

open Cert.Kernel Cert.Kernel.Gen
open Idealize.ShloMosaic Idealize.ShloMosaic.ValueIdx

variable {F : FTy → Type} [FloatOps F]

/-- The value the body stores into its result block, from the block of 37 rows `x0`, the two following rows `x1`,
    `x2`, the weight matrix `w kh kw` of each tap and the bias `bb`. -/
def stored (x0 : Vec F S1x37x224x32 .f32) (x1 x2 : Vec F S1x1x224x32 .f32)
    (w : Fin 3 → Fin 3 → Vec F S1x1x32x32 .bf16) (bb : Vec F S32 .f32) : FVec F S1x37x222x32 .f32 :=
  k0_pay1 (k0_pay2 x0 x1 x2)
    (k0_pay4 (k0_pay2 x0 x1 x2) (k0_pay3 x0 x1 x2 (w 0 0) (w 0 1) (w 0 2)) (w 1 0) (w 1 1) (w 1 2) (w 2 0) (w 2 1))
    (w 2 2) bb

/-- The 39 joined rows, entry by entry: row r of the block for r < 37, then the two single rows. -/
def rows39 {α : Type} (x0 : S1x37x224x32.Idx → α) (x1 x2 : S1x1x224x32.Idx → α) (r : Fin 39) (q : Fin 224) (c : Fin 32) : α :=
  if h : r.val < 37 then x0 (ix4 (0 : Fin 1) (⟨r.val, h⟩ : Fin 37) q c)
  else if r.val = 37 then x1 (ix4 (0 : Fin 1) (0 : Fin 1) q c) else x2 (ix4 (0 : Fin 1) (0 : Fin 1) q c)

end Cert.Kernel.Conv

end
-- ==== Proof.K.Body.lean ====
/-
  The kernel body, run once: on whole staging buffers holding a block of 37 image rows, the two rows below it,
  the 3x3x32x32 weights and the bias, it loads them, computes, and stores one whole result block, leaving the five
  inputs as they were. What it stores is `stored` of what it read (`out5`). Also here: the program up to the
  region (three host operations on the weights, which touch no argument), and two facts about the windows.
  Everything is stated for any float instance, so that the word-level program and the idealized one are run by the
  same text.
-/
import proofs.«117001_j77816217469233_1_alg».proof.Proof.Gen.Kernel.Launch
import proofs.«117001_j77816217469233_1_alg».proof.Proof.Gen.Kernel.Skeleton
import proofs.«117001_j77816217469233_1_alg».proof.Proof.Gen.Kernel.Points
import proofs.«117001_j77816217469233_1_alg».proof.Proof.K.Stored
import Idealize.ShloMosaic.Lib.Pipeline.FrameBody
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev rX0 : Rect S1x37x224x32 := Rect.unit (s := S1x37x224x32) ![0, 0, 0, 0] S1x37x224x32.size inb_S1x37x224x32_S1x37x224x32_0_0_0_0
abbrev rX1 : Rect S1x1x224x32 := Rect.unit (s := S1x1x224x32) ![0, 0, 0, 0] S1x1x224x32.size inb_S1x1x224x32_S1x1x224x32_0_0_0_0
abbrev rW00 : Rect S3x3x32x32 := Rect.unit (s := S3x3x32x32) ![0, 0, 0, 0] S1x1x32x32.size inb_S3x3x32x32_S1x1x32x32_0_0_0_0
abbrev rW01 : Rect S3x3x32x32 := Rect.unit (s := S3x3x32x32) ![0, 1, 0, 0] S1x1x32x32.size inb_S3x3x32x32_S1x1x32x32_0_1_0_0
abbrev rW02 : Rect S3x3x32x32 := Rect.unit (s := S3x3x32x32) ![0, 2, 0, 0] S1x1x32x32.size inb_S3x3x32x32_S1x1x32x32_0_2_0_0
abbrev rW10 : Rect S3x3x32x32 := Rect.unit (s := S3x3x32x32) ![1, 0, 0, 0] S1x1x32x32.size inb_S3x3x32x32_S1x1x32x32_1_0_0_0
abbrev rW11 : Rect S3x3x32x32 := Rect.unit (s := S3x3x32x32) ![1, 1, 0, 0] S1x1x32x32.size inb_S3x3x32x32_S1x1x32x32_1_1_0_0
abbrev rW12 : Rect S3x3x32x32 := Rect.unit (s := S3x3x32x32) ![1, 2, 0, 0] S1x1x32x32.size inb_S3x3x32x32_S1x1x32x32_1_2_0_0
abbrev rW20 : Rect S3x3x32x32 := Rect.unit (s := S3x3x32x32) ![2, 0, 0, 0] S1x1x32x32.size inb_S3x3x32x32_S1x1x32x32_2_0_0_0
abbrev rW21 : Rect S3x3x32x32 := Rect.unit (s := S3x3x32x32) ![2, 1, 0, 0] S1x1x32x32.size inb_S3x3x32x32_S1x1x32x32_2_1_0_0
abbrev rW22 : Rect S3x3x32x32 := Rect.unit (s := S3x3x32x32) ![2, 2, 0, 0] S1x1x32x32.size inb_S3x3x32x32_S1x1x32x32_2_2_0_0
abbrev rB : Rect S32 := Rect.unit (s := S32) ![0] S32.size inb_S32_S32_0
abbrev rO : Rect S1x37x222x32 := Rect.unit (s := S1x37x222x32) ![0, 0, 0, 0] S1x37x222x32.size inb_S1x37x222x32_S1x37x222x32_0_0_0_0

/-- The nine 32x32 weight matrices the body loads out of the 3x3x32x32 weight block, by tap. -/
def wtaps (wt : Vec F S3x3x32x32 .bf16) : Fin 3 → Fin 3 → Vec F S1x1x32x32 .bf16
  | ⟨0, _⟩, ⟨0, _⟩ => View.ld wt rW00
  | ⟨0, _⟩, ⟨1, _⟩ => View.ld wt rW01
  | ⟨0, _⟩, ⟨2, _⟩ => View.ld wt rW02
  | ⟨1, _⟩, ⟨0, _⟩ => View.ld wt rW10
  | ⟨1, _⟩, ⟨1, _⟩ => View.ld wt rW11
  | ⟨1, _⟩, ⟨2, _⟩ => View.ld wt rW12
  | ⟨2, _⟩, ⟨0, _⟩ => View.ld wt rW20
  | ⟨2, _⟩, ⟨1, _⟩ => View.ld wt rW21
  | ⟨2, _⟩, ⟨2, _⟩ => View.ld wt rW22
  | ⟨_ + 3, h⟩, _ => absurd h (Nat.not_lt.2 (Nat.le_add_left _ _))
  | _, ⟨_ + 3, h⟩ => absurd h (Nat.not_lt.2 (Nat.le_add_left _ _))

/-! ## What the body leaves in the result's buffer -/

/-- The result block after the body, from what the five input buffers read as: one store of the whole block. -/
def out5 (x0 : Vec F S1x37x224x32 .f32) (x1 x2 : Vec F S1x1x224x32 .f32) (wt : Vec F S3x3x32x32 .bf16) (bb : Vec F S32 .f32) :
    Vec F S1x37x222x32 .f32 :=
  View.canon [⟨rO, stored (View.ld x0 rX0) (View.ld x1 rX1) (View.ld x2 rX1) (wtaps wt) (View.ld bb rB)⟩]

theorem coverO (p0 : Vec F S1x37x222x32 .f32) (y : S1x37x222x32.Idx) :
    ∃ pc ∈ ([⟨rO, p0⟩] : List (View.Piece (Elt F) S1x37x222x32 .f32)), y ∈ pc.1.set :=
  View.cover_of_tiled [⟨rO, p0⟩] S1x37x222x32.size (by rfl) y

/-! ## The body's triple -/

set_option maxHeartbeats 2000000 in
/-- The body on whole staging memrefs, the five inputs' at read contents and the result's at anything, runs to the
    continuation holding the inputs' as they were and the result's at `out5` of them. -/
theorem sound_kernel (c : Dev nD) (E : Set ℕ) (i : grid0.Coords)
    (arg2 : Memref sig .tc .vmem S1x37x224x32 .f32) (harg2 : arg2.IsWhole) (arg3 : Memref sig .tc .vmem S1x1x224x32 .f32) (harg3 : arg3.IsWhole)
    (arg4 : Memref sig .tc .vmem S1x1x224x32 .f32) (harg4 : arg4.IsWhole) (arg5 : Memref sig .tc .vmem S3x3x32x32 .bf16) (harg5 : arg5.IsWhole)
    (arg6 : Memref sig .tc .vmem S32 .f32) (harg6 : arg6.IsWhole) (arg7 : Memref sig .tc .vmem S1x37x222x32 .f32) (harg7 : arg7.IsWhole)
    (x0 : Vec F S1x37x224x32 .f32) (x1 x2 : Vec F S1x1x224x32 .f32) (wt : Vec F S3x3x32x32 .bf16) (bb : Vec F S32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare wt ∗ owns (c : Thread nD τ) arg6 fullShare bb ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare wt ∗ owns (c : Thread nD τ) arg6 fullShare bb
            ∗ owns (c : Thread nD τ) arg7 fullShare (out5 x0 x1 x2 wt bb)) -∗ K ⟨⟩))
      ⊢ wp frame (wpE (defs₀ (F := F)) Variants.none c none) E
          (cc0__conv_kernel i arg2 harg2 arg3 harg3 arg4 harg4 arg5 harg5 arg6 harg6 arg7 harg7) K := by
  simp only [cc0__conv_kernel_eq_skeleton]; unfold cc0__conv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (coverO _)

variable (m : (ℓ : Loc nD τ sig) → Buf (Elt F) ℓ) (ρ : Dev nD → PrngReg)

/-! ## The program up to the kernel region -/

/-- Core `c`'s buffers when the region is entered: the launch contents after the three host operations (the weights
    reshaped to 32x3x3x32, transposed to 3x3x32x32, converted). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three host operations writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## Two facts about the windows -/

/-- No block of the first window reaches past the image's last row: its six blocks of 37 rows end at row 222 of 224,
    so no transfer of it is ever cut. -/
theorem clip0_none : ∀ (i : cfg0.grid.Coords) a, (cfg0.win 0).clip i a = none := by
  decide +kernel

/-- Every window is used at every grid point. -/
theorem live (w : Fin cfg0.W) : ∀ i, cfg0.idle w i = false := fun _ => rfl

end Cert.Kernel.Conv

end
-- ==== Proof.K.Frame.lean ====
/-
  The kernel region run over the whole grid: the proof data, the body obligation, the launch, the frame.

  The grid has 16 x 6 points; point (b, h) reads rows 37h .. 37h+36 of image b through one window and rows 37h+37 and
  37h+38 through two more windows ON THE SAME ARRAY, the whole weights and bias (fetched once), and writes rows
  37h .. 37h+36 of result b. The body only reads its inputs, so each input's staging buffer holds, whenever the body
  runs, the block its last fetch brought in (`held`); the result's buffer ends at `out5` of those.
  Because three input windows read one array, the launch is the one for windows that may share arrays: the image
  array's full share is dealt to its three windows by halving twice (`hsplit`). Nothing else is the kernel's own:
  no scratch, no semaphore, nothing carried between points.
  The run's post says each window's array ends at what the pipeline computes from the proof data, and every other
  buffer at what the region found; the frame reads the three arguments off it.
-/
import proofs.«117001_j77816217469233_1_alg».proof.Proof.Gen.Kernel.Launch
import proofs.«117001_j77816217469233_1_alg».proof.Proof.Gen.Kernel.Skeleton
import proofs.«117001_j77816217469233_1_alg».proof.Proof.Gen.Kernel.Points
import proofs.«117001_j77816217469233_1_alg».proof.Proof.K.Stored
import proofs.«117001_j77816217469233_1_alg».proof.Proof.K.Body
import Idealize.ShloMosaic.Lib.Pipeline.FrameBody
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays behind the six windows, as the region finds them. -/
abbrev arrs (c : Dev nD) (w : Fin cfg0.W) : Buf (Elt F) ((cfg0.win w).arr.view.loc (c : Thread nD τ)) := V m c (Pipeline.arrRef spec0 w)

/-- What an input window's staging buffer holds at point `t`: the block of its array that its last fetch, at or
    before `t`, brought in. The body only reads its inputs, so this is what it finds and what it leaves. -/
def held (c : Dev nD) (w : Fin cfg0.W) (t : Fin cfg0.N) : (cfg0.win w).block.Idx → Elt F (cfg0.win w).elt :=
  Pipeline.heldIn cfg0 (arrs m c) w t.val t.isLt

/-- The proof data of the one pipeline on core `c`. The three windows on the image array share it: the block
    window holds the left half of the full share, the two single-row windows the halves of the right half. -/
def dats (_ : Fin 1) (c : Dev nD) : Dat τ (Elt F) Unit ℕ (UR sig nD τ) ℕ cfg0 c where
  A w := V m c (Pipeline.arrRef spec0 w)
  after w t := match w with
    | ⟨0, _⟩ => held m c 0 t
    | ⟨1, _⟩ => held m c 1 t
    | ⟨2, _⟩ => held m c 2 t
    | ⟨3, _⟩ => held m c 3 t
    | ⟨4, _⟩ => held m c 4 t
    | ⟨5, _⟩ => out5 (held m c 0 t) (held m c 1 t) (held m c 2 t) (held m c 3 t) (held m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = held m c 0 t := by dsimp only [dats]
theorem after0_1 (c : Dev nD) (t : Fin cfg0.N) : (dats m 0 c).after 1 t = held m c 1 t := by dsimp only [dats]
theorem after0_2 (c : Dev nD) (t : Fin cfg0.N) : (dats m 0 c).after 2 t = held m c 2 t := by dsimp only [dats]
theorem after0_3 (c : Dev nD) (t : Fin cfg0.N) : (dats m 0 c).after 3 t = held m c 3 t := by dsimp only [dats]
theorem after0_4 (c : Dev nD) (t : Fin cfg0.N) : (dats m 0 c).after 4 t = held m c 4 t := by dsimp only [dats]
theorem after0_5 (c : Dev nD) (t : Fin cfg0.N) :
    (dats m 0 c).after 5 t = out5 (held m c 0 t) (held m c 1 t) (held m c 2 t) (held m c 3 t) (held m c 4 t) := by dsimp only [dats]

/-- Each input's staging buffer holds, when the body runs at `t`, the block of its last fetch — fetched at `t` or
    not —, since the body leaves it as found and no transfer of any window is cut. -/
theorem before0_0 (c : Dev nD) (t : Fin cfg0.N) (d) : (dats m 0 c).before 0 t d = held m c 0 t :=
  (dats m 0 c).before_eq_heldIn 0 rfl (live 0) clip0_none (fun t => after0_0 m c t) t d
theorem before0_1 (c : Dev nD) (t : Fin cfg0.N) (d) : (dats m 0 c).before 1 t d = held m c 1 t :=
  (dats m 0 c).before_eq_heldIn 1 rfl (live 1) (fun _ _ => rfl) (fun t => after0_1 m c t) t d
theorem before0_2 (c : Dev nD) (t : Fin cfg0.N) (d) : (dats m 0 c).before 2 t d = held m c 2 t :=
  (dats m 0 c).before_eq_heldIn 2 rfl (live 2) (fun _ _ => rfl) (fun t => after0_2 m c t) t d
theorem before0_3 (c : Dev nD) (t : Fin cfg0.N) (d) : (dats m 0 c).before 3 t d = held m c 3 t :=
  (dats m 0 c).before_eq_heldIn 3 rfl (live 3) (fun _ _ => rfl) (fun t => after0_3 m c t) t d
theorem before0_4 (c : Dev nD) (t : Fin cfg0.N) (d) : (dats m 0 c).before 4 t d = held m c 4 t :=
  (dats m 0 c).before_eq_heldIn 4 rfl (live 4) (fun _ _ => rfl) (fun t => after0_4 m c t) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold the blocks of their last fetches, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (held m c 0 t) (held m c 1 t) (held m c 2 t) (held m c 3 t) (held m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The four buffers behind the six windows' arrays, each whole at the full share, are the pipeline's arrays at the
    shares the proof data names: the image array's full share is cut in two, and its right half in two again, one part
    for each of the three windows that read it; the weights, the bias and the result are each one window's. -/
theorem hsplit (c : Dev nD) :
    (Pipeline.arrBufs spec0 c (V m c) : sProp 𝕄) ⊢ (dats m 0 c).arrays ((dats m 0 c).arrAt · 0) := by
  have himg : (Finset.univ.image (Pipeline.arrRef spec0) : Finset (Ref sig .tc)) = [main_arg0, main_v2, main_arg2, main_v3].toFinset := by decide
  unfold Pipeline.arrBufs Dat.arrays
  rw [bigSep_eq_bigSepL_of_eq _ himg (by decide), bigSep_W0]
  simp only [bigSepL_cons_cons, bigSepL_singleton, View.set_whole]
  rw [show (dats m 0 c).share 0 = fullShare.left from rfl, show (dats m 0 c).share 1 = fullShare.right.left from rfl,
    show (dats m 0 c).share 2 = fullShare.right.right from rfl, show (dats m 0 c).share 3 = fullShare from rfl,
    show (dats m 0 c).share 4 = fullShare from rfl, show (dats m 0 c).share 5 = fullShare from rfl]
  change iprop(_ ∗ (_ ∗ (_ ∗ _))) ⊢ _
  iintro ⟨H0, H3, H4, H5⟩
  ihave Hs := (pointsTo_share (PosShare.mem_left_op_right fullShare)).1 $$ H0
  icases Hs with ⟨Ha, Hb⟩
  ihave Hs2 := (pointsTo_share (PosShare.mem_left_op_right fullShare.right)).1 $$ Hb
  icases Hs2 with ⟨Hb1, Hb2⟩
  isplitl [Ha]; · iexact Ha
  isplitl [Hb1]; · iexact Hb1
  isplitl [Hb2]; · iexact Hb2
  isplitl [H3]; · iexact H3
  isplitl [H4]; · iexact H4
  iexact H5

set_option backward.isDefEq.respectTransparency.types false in
/-- For any values, from any memory whose semaphore counters are zero: every weakly fair execution of the program
    terminates, and in every final state each array of the pipeline holds what the library computes from the proof
    data, every other unscoped buffer what the region found there. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun _ => by iintro -; iempintro)
    (hout := fun c => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Conv.run_main' depends on axioms: [propext, Classical.choice, Quot.sound] -/
#guard_msgs in #print axioms run_main

/-! ## The frame -/

/-- The three arguments end as launched: the image and the bias are arrays only input windows read, which the
    pipeline never writes; the flat weights bypass the region, and no host operation before it writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.Kernel.Conv

end
-- ==== Proof.KI.Stored.lean ====
/-
  What the kernel body stores, as one function of what its loads read.

  The body reads a block of 37 image rows and the two rows below it, joins them into 39 rows, and for each of the
  nine taps multiplies the 37x222 window of that tap (as a matrix of 8214 pixels by 32 channels) by the tap's
  32x32 weight matrix, adding the nine products up from zero; then it adds the bias along the channel axis.
  `stored` is that value over the five things read: the block, the two rows, the nine weight matrices and the bias.
  `rows39` names the joined rows entry by entry: rows 0..36 come from the block, row 37 and row 38 from the two
  single rows.
-/
import proofs.«117001_j77816217469233_1_alg».proof.Proof.Gen.KernelIdeal.Skeleton
import Idealize.ShloMosaic.Lib.ValueIdx

noncomputable section

namespace Cert.KernelIdeal.Conv

open Cert.KernelIdeal Cert.KernelIdeal.Gen
open Idealize.ShloMosaic Idealize.ShloMosaic.ValueIdx

variable {F : FTy → Type} [FloatOps F]

/-- The value the body stores into its result block, from the block of 37 rows `x0`, the two following rows `x1`,
    `x2`, the weight matrix `w kh kw` of each tap and the bias `bb`. -/
def stored (x0 : Vec F S1x37x224x32 .f32) (x1 x2 : Vec F S1x1x224x32 .f32)
    (w : Fin 3 → Fin 3 → Vec F S1x1x32x32 .bf16) (bb : Vec F S32 .f32) : FVec F S1x37x222x32 .f32 :=
  k0_pay1 (k0_pay2 x0 x1 x2)
    (k0_pay4 (k0_pay2 x0 x1 x2) (k0_pay3 x0 x1 x2 (w 0 0) (w 0 1) (w 0 2)) (w 1 0) (w 1 1) (w 1 2) (w 2 0) (w 2 1))
    (w 2 2) bb

/-- The 39 joined rows, entry by entry: row r of the block for r < 37, then the two single rows. -/
def rows39 {α : Type} (x0 : S1x37x224x32.Idx → α) (x1 x2 : S1x1x224x32.Idx → α) (r : Fin 39) (q : Fin 224) (c : Fin 32) : α :=
  if h : r.val < 37 then x0 (ix4 (0 : Fin 1) (⟨r.val, h⟩ : Fin 37) q c)
  else if r.val = 37 then x1 (ix4 (0 : Fin 1) (0 : Fin 1) q c) else x2 (ix4 (0 : Fin 1) (0 : Fin 1) q c)

end Cert.KernelIdeal.Conv

end
-- ==== Proof.KI.Body.lean ====
/-
  The kernel body, run once: on whole staging buffers holding a block of 37 image rows, the two rows below it,
  the 3x3x32x32 weights and the bias, it loads them, computes, and stores one whole result block, leaving the five
  inputs as they were. What it stores is `stored` of what it read (`out5`). Also here: the program up to the
  region (three host operations on the weights, which touch no argument), and two facts about the windows.
  Everything is stated for any float instance, so that the word-level program and the idealized one are run by the
  same text.
-/
import proofs.«117001_j77816217469233_1_alg».proof.Proof.Gen.KernelIdeal.Launch
import proofs.«117001_j77816217469233_1_alg».proof.Proof.Gen.KernelIdeal.Skeleton
import proofs.«117001_j77816217469233_1_alg».proof.Proof.Gen.KernelIdeal.Points
import proofs.«117001_j77816217469233_1_alg».proof.Proof.KI.Stored
import Idealize.ShloMosaic.Lib.Pipeline.FrameBody
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev rX0 : Rect S1x37x224x32 := Rect.unit (s := S1x37x224x32) ![0, 0, 0, 0] S1x37x224x32.size inb_S1x37x224x32_S1x37x224x32_0_0_0_0
abbrev rX1 : Rect S1x1x224x32 := Rect.unit (s := S1x1x224x32) ![0, 0, 0, 0] S1x1x224x32.size inb_S1x1x224x32_S1x1x224x32_0_0_0_0
abbrev rW00 : Rect S3x3x32x32 := Rect.unit (s := S3x3x32x32) ![0, 0, 0, 0] S1x1x32x32.size inb_S3x3x32x32_S1x1x32x32_0_0_0_0
abbrev rW01 : Rect S3x3x32x32 := Rect.unit (s := S3x3x32x32) ![0, 1, 0, 0] S1x1x32x32.size inb_S3x3x32x32_S1x1x32x32_0_1_0_0
abbrev rW02 : Rect S3x3x32x32 := Rect.unit (s := S3x3x32x32) ![0, 2, 0, 0] S1x1x32x32.size inb_S3x3x32x32_S1x1x32x32_0_2_0_0
abbrev rW10 : Rect S3x3x32x32 := Rect.unit (s := S3x3x32x32) ![1, 0, 0, 0] S1x1x32x32.size inb_S3x3x32x32_S1x1x32x32_1_0_0_0
abbrev rW11 : Rect S3x3x32x32 := Rect.unit (s := S3x3x32x32) ![1, 1, 0, 0] S1x1x32x32.size inb_S3x3x32x32_S1x1x32x32_1_1_0_0
abbrev rW12 : Rect S3x3x32x32 := Rect.unit (s := S3x3x32x32) ![1, 2, 0, 0] S1x1x32x32.size inb_S3x3x32x32_S1x1x32x32_1_2_0_0
abbrev rW20 : Rect S3x3x32x32 := Rect.unit (s := S3x3x32x32) ![2, 0, 0, 0] S1x1x32x32.size inb_S3x3x32x32_S1x1x32x32_2_0_0_0
abbrev rW21 : Rect S3x3x32x32 := Rect.unit (s := S3x3x32x32) ![2, 1, 0, 0] S1x1x32x32.size inb_S3x3x32x32_S1x1x32x32_2_1_0_0
abbrev rW22 : Rect S3x3x32x32 := Rect.unit (s := S3x3x32x32) ![2, 2, 0, 0] S1x1x32x32.size inb_S3x3x32x32_S1x1x32x32_2_2_0_0
abbrev rB : Rect S32 := Rect.unit (s := S32) ![0] S32.size inb_S32_S32_0
abbrev rO : Rect S1x37x222x32 := Rect.unit (s := S1x37x222x32) ![0, 0, 0, 0] S1x37x222x32.size inb_S1x37x222x32_S1x37x222x32_0_0_0_0

/-- The nine 32x32 weight matrices the body loads out of the 3x3x32x32 weight block, by tap. -/
def wtaps (wt : Vec F S3x3x32x32 .bf16) : Fin 3 → Fin 3 → Vec F S1x1x32x32 .bf16
  | ⟨0, _⟩, ⟨0, _⟩ => View.ld wt rW00
  | ⟨0, _⟩, ⟨1, _⟩ => View.ld wt rW01
  | ⟨0, _⟩, ⟨2, _⟩ => View.ld wt rW02
  | ⟨1, _⟩, ⟨0, _⟩ => View.ld wt rW10
  | ⟨1, _⟩, ⟨1, _⟩ => View.ld wt rW11
  | ⟨1, _⟩, ⟨2, _⟩ => View.ld wt rW12
  | ⟨2, _⟩, ⟨0, _⟩ => View.ld wt rW20
  | ⟨2, _⟩, ⟨1, _⟩ => View.ld wt rW21
  | ⟨2, _⟩, ⟨2, _⟩ => View.ld wt rW22
  | ⟨_ + 3, h⟩, _ => absurd h (Nat.not_lt.2 (Nat.le_add_left _ _))
  | _, ⟨_ + 3, h⟩ => absurd h (Nat.not_lt.2 (Nat.le_add_left _ _))

/-! ## What the body leaves in the result's buffer -/

/-- The result block after the body, from what the five input buffers read as: one store of the whole block. -/
def out5 (x0 : Vec F S1x37x224x32 .f32) (x1 x2 : Vec F S1x1x224x32 .f32) (wt : Vec F S3x3x32x32 .bf16) (bb : Vec F S32 .f32) :
    Vec F S1x37x222x32 .f32 :=
  View.canon [⟨rO, stored (View.ld x0 rX0) (View.ld x1 rX1) (View.ld x2 rX1) (wtaps wt) (View.ld bb rB)⟩]

theorem coverO (p0 : Vec F S1x37x222x32 .f32) (y : S1x37x222x32.Idx) :
    ∃ pc ∈ ([⟨rO, p0⟩] : List (View.Piece (Elt F) S1x37x222x32 .f32)), y ∈ pc.1.set :=
  View.cover_of_tiled [⟨rO, p0⟩] S1x37x222x32.size (by rfl) y

/-! ## The body's triple -/

set_option maxHeartbeats 2000000 in
/-- The body on whole staging memrefs, the five inputs' at read contents and the result's at anything, runs to the
    continuation holding the inputs' as they were and the result's at `out5` of them. -/
theorem sound_kernel (c : Dev nD) (E : Set ℕ) (i : grid0.Coords)
    (arg2 : Memref sig .tc .vmem S1x37x224x32 .f32) (harg2 : arg2.IsWhole) (arg3 : Memref sig .tc .vmem S1x1x224x32 .f32) (harg3 : arg3.IsWhole)
    (arg4 : Memref sig .tc .vmem S1x1x224x32 .f32) (harg4 : arg4.IsWhole) (arg5 : Memref sig .tc .vmem S3x3x32x32 .bf16) (harg5 : arg5.IsWhole)
    (arg6 : Memref sig .tc .vmem S32 .f32) (harg6 : arg6.IsWhole) (arg7 : Memref sig .tc .vmem S1x37x222x32 .f32) (harg7 : arg7.IsWhole)
    (x0 : Vec F S1x37x224x32 .f32) (x1 x2 : Vec F S1x1x224x32 .f32) (wt : Vec F S3x3x32x32 .bf16) (bb : Vec F S32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare wt ∗ owns (c : Thread nD τ) arg6 fullShare bb ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare wt ∗ owns (c : Thread nD τ) arg6 fullShare bb
            ∗ owns (c : Thread nD τ) arg7 fullShare (out5 x0 x1 x2 wt bb)) -∗ K ⟨⟩))
      ⊢ wp frame (wpE (defs₀ (F := F)) Variants.none c none) E
          (cc0__conv_kernel i arg2 harg2 arg3 harg3 arg4 harg4 arg5 harg5 arg6 harg6 arg7 harg7) K := by
  simp only [cc0__conv_kernel_eq_skeleton]; unfold cc0__conv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (coverO _)

variable (m : (ℓ : Loc nD τ sig) → Buf (Elt F) ℓ) (ρ : Dev nD → PrngReg)

/-! ## The program up to the kernel region -/

/-- Core `c`'s buffers when the region is entered: the launch contents after the three host operations (the weights
    reshaped to 32x3x3x32, transposed to 3x3x32x32, converted). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three host operations writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## Two facts about the windows -/

/-- No block of the first window reaches past the image's last row: its six blocks of 37 rows end at row 222 of 224,
    so no transfer of it is ever cut. -/
theorem clip0_none : ∀ (i : cfg0.grid.Coords) a, (cfg0.win 0).clip i a = none := by
  decide +kernel

/-- Every window is used at every grid point. -/
theorem live (w : Fin cfg0.W) : ∀ i, cfg0.idle w i = false := fun _ => rfl

end Cert.KernelIdeal.Conv

end
-- ==== Proof.KI.Frame.lean ====
/-
  The kernel region run over the whole grid: the proof data, the body obligation, the launch, the frame.

  The grid has 16 x 6 points; point (b, h) reads rows 37h .. 37h+36 of image b through one window and rows 37h+37 and
  37h+38 through two more windows ON THE SAME ARRAY, the whole weights and bias (fetched once), and writes rows
  37h .. 37h+36 of result b. The body only reads its inputs, so each input's staging buffer holds, whenever the body
  runs, the block its last fetch brought in (`held`); the result's buffer ends at `out5` of those.
  Because three input windows read one array, the launch is the one for windows that may share arrays: the image
  array's full share is dealt to its three windows by halving twice (`hsplit`). Nothing else is the kernel's own:
  no scratch, no semaphore, nothing carried between points.
  The run's post says each window's array ends at what the pipeline computes from the proof data, and every other
  buffer at what the region found; the frame reads the three arguments off it.
-/
import proofs.«117001_j77816217469233_1_alg».proof.Proof.Gen.KernelIdeal.Launch
import proofs.«117001_j77816217469233_1_alg».proof.Proof.Gen.KernelIdeal.Skeleton
import proofs.«117001_j77816217469233_1_alg».proof.Proof.Gen.KernelIdeal.Points
import proofs.«117001_j77816217469233_1_alg».proof.Proof.KI.Stored
import proofs.«117001_j77816217469233_1_alg».proof.Proof.KI.Body
import Idealize.ShloMosaic.Lib.Pipeline.FrameBody
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays behind the six windows, as the region finds them. -/
abbrev arrs (c : Dev nD) (w : Fin cfg0.W) : Buf (Elt F) ((cfg0.win w).arr.view.loc (c : Thread nD τ)) := V m c (Pipeline.arrRef spec0 w)

/-- What an input window's staging buffer holds at point `t`: the block of its array that its last fetch, at or
    before `t`, brought in. The body only reads its inputs, so this is what it finds and what it leaves. -/
def held (c : Dev nD) (w : Fin cfg0.W) (t : Fin cfg0.N) : (cfg0.win w).block.Idx → Elt F (cfg0.win w).elt :=
  Pipeline.heldIn cfg0 (arrs m c) w t.val t.isLt

/-- The proof data of the one pipeline on core `c`. The three windows on the image array share it: the block
    window holds the left half of the full share, the two single-row windows the halves of the right half. -/
def dats (_ : Fin 1) (c : Dev nD) : Dat τ (Elt F) Unit ℕ (UR sig nD τ) ℕ cfg0 c where
  A w := V m c (Pipeline.arrRef spec0 w)
  after w t := match w with
    | ⟨0, _⟩ => held m c 0 t
    | ⟨1, _⟩ => held m c 1 t
    | ⟨2, _⟩ => held m c 2 t
    | ⟨3, _⟩ => held m c 3 t
    | ⟨4, _⟩ => held m c 4 t
    | ⟨5, _⟩ => out5 (held m c 0 t) (held m c 1 t) (held m c 2 t) (held m c 3 t) (held m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = held m c 0 t := by dsimp only [dats]
theorem after0_1 (c : Dev nD) (t : Fin cfg0.N) : (dats m 0 c).after 1 t = held m c 1 t := by dsimp only [dats]
theorem after0_2 (c : Dev nD) (t : Fin cfg0.N) : (dats m 0 c).after 2 t = held m c 2 t := by dsimp only [dats]
theorem after0_3 (c : Dev nD) (t : Fin cfg0.N) : (dats m 0 c).after 3 t = held m c 3 t := by dsimp only [dats]
theorem after0_4 (c : Dev nD) (t : Fin cfg0.N) : (dats m 0 c).after 4 t = held m c 4 t := by dsimp only [dats]
theorem after0_5 (c : Dev nD) (t : Fin cfg0.N) :
    (dats m 0 c).after 5 t = out5 (held m c 0 t) (held m c 1 t) (held m c 2 t) (held m c 3 t) (held m c 4 t) := by dsimp only [dats]

/-- Each input's staging buffer holds, when the body runs at `t`, the block of its last fetch — fetched at `t` or
    not —, since the body leaves it as found and no transfer of any window is cut. -/
theorem before0_0 (c : Dev nD) (t : Fin cfg0.N) (d) : (dats m 0 c).before 0 t d = held m c 0 t :=
  (dats m 0 c).before_eq_heldIn 0 rfl (live 0) clip0_none (fun t => after0_0 m c t) t d
theorem before0_1 (c : Dev nD) (t : Fin cfg0.N) (d) : (dats m 0 c).before 1 t d = held m c 1 t :=
  (dats m 0 c).before_eq_heldIn 1 rfl (live 1) (fun _ _ => rfl) (fun t => after0_1 m c t) t d
theorem before0_2 (c : Dev nD) (t : Fin cfg0.N) (d) : (dats m 0 c).before 2 t d = held m c 2 t :=
  (dats m 0 c).before_eq_heldIn 2 rfl (live 2) (fun _ _ => rfl) (fun t => after0_2 m c t) t d
theorem before0_3 (c : Dev nD) (t : Fin cfg0.N) (d) : (dats m 0 c).before 3 t d = held m c 3 t :=
  (dats m 0 c).before_eq_heldIn 3 rfl (live 3) (fun _ _ => rfl) (fun t => after0_3 m c t) t d
theorem before0_4 (c : Dev nD) (t : Fin cfg0.N) (d) : (dats m 0 c).before 4 t d = held m c 4 t :=
  (dats m 0 c).before_eq_heldIn 4 rfl (live 4) (fun _ _ => rfl) (fun t => after0_4 m c t) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold the blocks of their last fetches, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (held m c 0 t) (held m c 1 t) (held m c 2 t) (held m c 3 t) (held m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The four buffers behind the six windows' arrays, each whole at the full share, are the pipeline's arrays at the
    shares the proof data names: the image array's full share is cut in two, and its right half in two again, one part
    for each of the three windows that read it; the weights, the bias and the result are each one window's. -/
theorem hsplit (c : Dev nD) :
    (Pipeline.arrBufs spec0 c (V m c) : sProp 𝕄) ⊢ (dats m 0 c).arrays ((dats m 0 c).arrAt · 0) := by
  have himg : (Finset.univ.image (Pipeline.arrRef spec0) : Finset (Ref sig .tc)) = [main_arg0, main_v2, main_arg2, main_v3].toFinset := by decide
  unfold Pipeline.arrBufs Dat.arrays
  rw [bigSep_eq_bigSepL_of_eq _ himg (by decide), bigSep_W0]
  simp only [bigSepL_cons_cons, bigSepL_singleton, View.set_whole]
  rw [show (dats m 0 c).share 0 = fullShare.left from rfl, show (dats m 0 c).share 1 = fullShare.right.left from rfl,
    show (dats m 0 c).share 2 = fullShare.right.right from rfl, show (dats m 0 c).share 3 = fullShare from rfl,
    show (dats m 0 c).share 4 = fullShare from rfl, show (dats m 0 c).share 5 = fullShare from rfl]
  change iprop(_ ∗ (_ ∗ (_ ∗ _))) ⊢ _
  iintro ⟨H0, H3, H4, H5⟩
  ihave Hs := (pointsTo_share (PosShare.mem_left_op_right fullShare)).1 $$ H0
  icases Hs with ⟨Ha, Hb⟩
  ihave Hs2 := (pointsTo_share (PosShare.mem_left_op_right fullShare.right)).1 $$ Hb
  icases Hs2 with ⟨Hb1, Hb2⟩
  isplitl [Ha]; · iexact Ha
  isplitl [Hb1]; · iexact Hb1
  isplitl [Hb2]; · iexact Hb2
  isplitl [H3]; · iexact H3
  isplitl [H4]; · iexact H4
  iexact H5

set_option backward.isDefEq.respectTransparency.types false in
/-- For any values, from any memory whose semaphore counters are zero: every weakly fair execution of the program
    terminates, and in every final state each array of the pipeline holds what the library computes from the proof
    data, every other unscoped buffer what the region found there. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun _ => by iintro -; iempintro)
    (hout := fun c => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Conv.run_main' depends on axioms: [propext, Classical.choice, Quot.sound] -/
#guard_msgs in #print axioms run_main

/-! ## The frame -/

/-- The three arguments end as launched: the image and the bias are arrays only input windows read, which the
    pipeline never writes; the flat weights bypass the region, and no host operation before it writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.Conv

end
-- ==== Proof.KI.Point.lean ====
/-
  The two coordinates of a grid point: which of the sixteen images it works on, and which of the six tiles of 37 rows.
-/
import proofs.«117001_j77816217469233_1_alg».proof.Proof.Gen.KernelIdeal.Launch

noncomputable section

namespace Cert.KernelIdeal.Conv

open Cert.KernelIdeal Cert.KernelIdeal.Gen Idealize.ShloMosaic

/-- The image a grid point works on, and its tile of 37 rows. -/
abbrev imgOf (t : Fin cfg0.N) : Fin 16 := grid0.coords t 0
abbrev tileOf (t : Fin cfg0.N) : Fin 6 := grid0.coords t 1

end Cert.KernelIdeal.Conv

end
-- ==== Proof.ConvSpec.lean ====
/-
  The function both programs compute, stated once over the argument arrays.

  A 3x3 convolution without padding, stride one, 32 input and 32 output channels, over a batch of sixteen
  224x224 images: output pixel (b, h, w) of channel f is the sum, over the nine taps (kh, kw) and the 32 input
  channels c, of the input at pixel (b, h + kh, w + kw), channel c, times the weight of (f, kh, kw, c), plus the
  bias of f. The weights arrive as one flat vector of 32 * 3 * 3 * 32 = 9216 words laid out filter-major:
  the weight of (f, kh, kw, c) is word f * 288 + kh * 96 + kw * 32 + c.
  Values are extended reals; the only laws used anywhere about this function are commutativity and
  associativity of the sum, so nothing here asks the entries to be finite.
-/
import Idealize.ShloMosaic.PureOps.Ideal
import Idealize.ShloMosaic.Lib.ValueIdx

noncomputable section

namespace Cert.Conv

open Idealize.ShloMosaic Idealize.ShloMosaic.ValueIdx
open scoped BigOperators

/-- The images, the flat weights, the bias and the result. -/
abbrev SImg : Shape := ⟨4, ![16, 224, 224, 32]⟩
abbrev SWts : Shape := ⟨1, ![9216]⟩
abbrev SBias : Shape := ⟨1, ![32]⟩
abbrev SRes : Shape := ⟨4, ![16, 222, 222, 32]⟩

/-- The input entry tap (kh, kw) reads for output pixel (b, h, w): pixel (b, h + kh, w + kw), channel c. -/
def tap (b : Fin 16) (h w : Fin 222) (kh kw : Fin 3) (c : Fin 32) : SImg.Idx :=
  ix4 b ⟨h.val + kh.val, by have := h.isLt; have := kh.isLt; omega⟩ ⟨w.val + kw.val, by have := w.isLt; have := kw.isLt; omega⟩ c

/-- The flat position of the weight of filter f at tap (kh, kw), channel c. -/
def wpos (f : Fin 32) (kh kw : Fin 3) (c : Fin 32) : SWts.Idx :=
  ix1 ⟨f.val * 288 + kh.val * 96 + kw.val * 32 + c.val, by have := f.isLt; have := kh.isLt; have := kw.isLt; have := c.isLt; omega⟩

/-- The convolution with bias, entry by entry. -/
def conv (x : SImg.Idx → EReal) (w : SWts.Idx → EReal) (bias : SBias.Idx → EReal) : SRes.Idx → EReal :=
  fun i => (∑ kh : Fin 3, ∑ kw : Fin 3, ∑ c : Fin 32, x (tap (i 0) (i 1) (i 2) kh kw c) * w (wpos (i 3) kh kw c)) + bias (ix1 (i 3))

theorem conv_apply (x : SImg.Idx → EReal) (w : SWts.Idx → EReal) (bias : SBias.Idx → EReal)
    (b : Fin 16) (h wd : Fin 222) (f : Fin 32) :
    conv x w bias (ix4 b h wd f)
      = (∑ kh : Fin 3, ∑ kw : Fin 3, ∑ c : Fin 32, x (tap b h wd kh kw c) * w (wpos f kh kw c)) + bias (ix1 f) := rfl

end Cert.Conv

end
-- ==== Proof.KI.HeldAt.lean ====
/-
  What each input buffer holds at a grid point, entry by entry, in terms of the launched arrays.
  Point t has coordinates (b, h) = (grid0.coords t 0, grid0.coords t 1): the block window holds rows 37h .. 37h+36 of
  image b, the two single-row windows rows 37(h+1) and 37(h+1)+1, the weight window the whole 3x3x32x32 weights —
  entry (kh, kw, c, f) of which is word f*288 + kh*96 + kw*32 + c of the flat weights (reshape to 32x3x3x32, move the
  filter axis last; the change of float format is the identity on extended reals) —, the bias window the whole bias.
-/
import proofs.«117001_j77816217469233_1_alg».proof.Proof.Gen.KernelIdeal.Launch
import proofs.«117001_j77816217469233_1_alg».proof.Proof.Gen.KernelIdeal.Skeleton
import proofs.«117001_j77816217469233_1_alg».proof.Proof.Gen.KernelIdeal.Points
import proofs.«117001_j77816217469233_1_alg».proof.Proof.KI.Stored
import proofs.«117001_j77816217469233_1_alg».proof.Proof.KI.Frame
import proofs.«117001_j77816217469233_1_alg».proof.Proof.KI.Point
import proofs.«117001_j77816217469233_1_alg».proof.Proof.ConvSpec
import Idealize.ShloMosaic.PureOps.Ideal
import Idealize.ShloMosaic.Lib.Pipeline.Value
import Idealize.ShloMosaic.Lib.Pipeline.FrameBody
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block indices of the three image windows at a point: the image, and the first row of the tile (the block
    window counts rows in blocks of 37, the single-row windows in rows). -/
theorem idx_img0 : ∀ t : Fin cfg0.N, win0_0.index t (0 : Fin 4) = (grid0.coords t 0).val
    ∧ win0_0.index t (1 : Fin 4) = (grid0.coords t 1).val ∧ win0_0.index t (2 : Fin 4) = 0 ∧ win0_0.index t (3 : Fin 4) = 0 :=
  (by decide +kernel : ∀ t : Fin grid0.N, _)
theorem idx_img1 : ∀ t : Fin cfg0.N, win0_1.index t (0 : Fin 4) = (grid0.coords t 0).val
    ∧ win0_1.index t (1 : Fin 4) = 37 * (grid0.coords t 1).val + 37 ∧ win0_1.index t (2 : Fin 4) = 0 ∧ win0_1.index t (3 : Fin 4) = 0 :=
  (by decide +kernel : ∀ t : Fin grid0.N, _)
theorem idx_img2 : ∀ t : Fin cfg0.N, win0_2.index t (0 : Fin 4) = (grid0.coords t 0).val
    ∧ win0_2.index t (1 : Fin 4) = 37 * (grid0.coords t 1).val + 38 ∧ win0_2.index t (2 : Fin 4) = 0 ∧ win0_2.index t (3 : Fin 4) = 0 :=
  (by decide +kernel : ∀ t : Fin grid0.N, _)

/-- The block window at point (b, h): rows 37h .. 37h+36 of image b. -/
theorem held0_apply (c : Dev nD) (t : Fin cfg0.N) (r : Fin 37) (q : Fin 224) (ch : Fin 32) :
    held m c 0 t (ix4 (0 : Fin 1) r q ch)
      = m ((c : Thread nD τ).loc main_arg0)
          (ix4 (imgOf t) (⟨37 * (tileOf t).val + r.val, by have := (tileOf t).isLt; have := r.isLt; omega⟩ : Fin 224) q ch) := by
  unfold held
  rw [Pipeline.heldIn_of_fetch (arrs m c) 0 t (fetch0_0 t)]
  have hm : (cfg0.win 0).moved (cfg0.grid.coords t) (ix4 (0 : Fin 1) r q ch) = true :=
    ((cfg0.win 0).moved_iff _ _).mpr fun a => by
      have := ((ix4 (0 : Fin 1) r q ch : S1x37x224x32.Idx) a).isLt
      unfold Pipeline.Window.xsize; rw [clip0_none]; exact this
  unfold Pipeline.Window.fill
  rw [dif_pos hm]
  show V m c main_arg0 (((cfg0.win 0).blk t).view.emb _) = _
  rw [V_main_arg0]
  obtain ⟨e0, e1, e2, e3⟩ := idx_img0 t
  refine congrArg _ (funext fun a => Fin.ext ?_)
  match a with
  | ⟨0, _⟩ => show win0_0.index t (0 : Fin 4) * 1 + 1 * 0 = (grid0.coords t 0).val; omega
  | ⟨1, _⟩ => show win0_0.index t (1 : Fin 4) * 37 + 1 * r.val = 37 * (grid0.coords t 1).val + r.val; omega
  | ⟨2, _⟩ => show win0_0.index t (2 : Fin 4) * 224 + 1 * q.val = q.val; omega
  | ⟨3, _⟩ => show win0_0.index t (3 : Fin 4) * 32 + 1 * ch.val = ch.val; omega

/-- The first single-row window at point (b, h): row 37(h+1) of image b. -/
theorem held1_apply (c : Dev nD) (t : Fin cfg0.N) (q : Fin 224) (ch : Fin 32) :
    held m c 1 t (ix4 (0 : Fin 1) (0 : Fin 1) q ch)
      = m ((c : Thread nD τ).loc main_arg0)
          (ix4 (imgOf t) (⟨37 * (tileOf t).val + 37, by have := (tileOf t).isLt; omega⟩ : Fin 224) q ch) := by
  unfold held
  rw [Pipeline.heldIn_of_fetch (arrs m c) 1 t (fetch0_1 t)]
  show V m c main_arg0 (((cfg0.win 1).blk t).view.emb (ix4 (0 : Fin 1) (0 : Fin 1) q ch)) = _
  rw [V_main_arg0]
  obtain ⟨e0, e1, e2, e3⟩ := idx_img1 t
  refine congrArg _ (funext fun a => Fin.ext ?_)
  match a with
  | ⟨0, _⟩ => show win0_1.index t (0 : Fin 4) * 1 + 1 * 0 = (grid0.coords t 0).val; omega
  | ⟨1, _⟩ => show win0_1.index t (1 : Fin 4) * 1 + 1 * 0 = 37 * (grid0.coords t 1).val + 37; omega
  | ⟨2, _⟩ => show win0_1.index t (2 : Fin 4) * 224 + 1 * q.val = q.val; omega
  | ⟨3, _⟩ => show win0_1.index t (3 : Fin 4) * 32 + 1 * ch.val = ch.val; omega

/-- The second single-row window at point (b, h): row 37(h+1)+1 of image b. -/
theorem held2_apply (c : Dev nD) (t : Fin cfg0.N) (q : Fin 224) (ch : Fin 32) :
    held m c 2 t (ix4 (0 : Fin 1) (0 : Fin 1) q ch)
      = m ((c : Thread nD τ).loc main_arg0)
          (ix4 (imgOf t) (⟨37 * (tileOf t).val + 38, by have := (tileOf t).isLt; omega⟩ : Fin 224) q ch) := by
  unfold held
  rw [Pipeline.heldIn_of_fetch (arrs m c) 2 t (fetch0_2 t)]
  show V m c main_arg0 (((cfg0.win 2).blk t).view.emb (ix4 (0 : Fin 1) (0 : Fin 1) q ch)) = _
  rw [V_main_arg0]
  obtain ⟨e0, e1, e2, e3⟩ := idx_img2 t
  refine congrArg _ (funext fun a => Fin.ext ?_)
  match a with
  | ⟨0, _⟩ => show win0_2.index t (0 : Fin 4) * 1 + 1 * 0 = (grid0.coords t 0).val; omega
  | ⟨1, _⟩ => show win0_2.index t (1 : Fin 4) * 1 + 1 * 0 = 37 * (grid0.coords t 1).val + 38; omega
  | ⟨2, _⟩ => show win0_2.index t (2 : Fin 4) * 224 + 1 * q.val = q.val; omega
  | ⟨3, _⟩ => show win0_2.index t (3 : Fin 4) * 32 + 1 * ch.val = ch.val; omega

/-- The first grid point. -/
abbrev t0 : Fin cfg0.N := ⟨0, by rw [show cfg0.N = grid0.N from rfl, N_0]; omega⟩

/-- A window fetched at the first point only holds, at every point, what it held at the first. -/
theorem held_const3 (c : Dev nD) : ∀ (n : ℕ) (h : n < cfg0.N), Pipeline.heldIn cfg0 (arrs m c) 3 n h = Pipeline.heldIn cfg0 (arrs m c) 3 0 t0.isLt
  | 0, _ => rfl
  | n + 1, h => by
    have hN : cfg0.N = 96 := N_0
    have hf : (cfg0.win 3).fetch ⟨n + 1, h⟩ = false := by
      rw [Bool.eq_false_iff]; intro hh
      have := (fetch0_3 ⟨n + 1, h⟩).mp hh
      simp only at this; omega
    rw [Pipeline.heldIn_of_not_fetch (arrs m c) 3 n h hf]
    exact held_const3 c n (Nat.lt_of_succ_lt h)
theorem held_const4 (c : Dev nD) : ∀ (n : ℕ) (h : n < cfg0.N), Pipeline.heldIn cfg0 (arrs m c) 4 n h = Pipeline.heldIn cfg0 (arrs m c) 4 0 t0.isLt
  | 0, _ => rfl
  | n + 1, h => by
    have hN : cfg0.N = 96 := N_0
    have hf : (cfg0.win 4).fetch ⟨n + 1, h⟩ = false := by
      rw [Bool.eq_false_iff]; intro hh
      have := (fetch0_4 ⟨n + 1, h⟩).mp hh
      simp only at this; omega
    rw [Pipeline.heldIn_of_not_fetch (arrs m c) 4 n h hf]
    exact held_const4 c n (Nat.lt_of_succ_lt h)

/-- The bias window's one block is the whole bias. -/
theorem held4_whole (c : Dev nD) (t : Fin cfg0.N) : held m c 4 t = m ((c : Thread nD τ).loc main_arg2) := by
  unfold held
  rw [held_const4 m c t.val t.isLt]
  have hz : (fun a => (win0_4.index t0) a * main_arg2.ty.shape.size a) = fun _ => 0 := funext fun a => by fin_cases a <;> decide
  show ((cfg0.win 4).blk t0).view.read (Elt F) (arrs m c 4) = _
  refine (Memref.read_access_unit_zero (Elt F) main_arg2 hz _ _).trans ?_
  exact V_main_arg2 m c

/-- The bias window, at every point: the whole bias. -/
theorem held4_apply (c : Dev nD) (t : Fin cfg0.N) (f : Fin 32) :
    held m c 4 t (ix1 f) = m ((c : Thread nD τ).loc main_arg2) (ix1 f) := by
  rw [held4_whole]

/-- The weight window's one block is the whole 3x3x32x32 weight array as the region finds it. -/
theorem held3_whole (c : Dev nD) (t : Fin cfg0.N) : held m c 3 t = V m c main_v2 := by
  unfold held
  rw [held_const3 m c t.val t.isLt]
  have hz : (fun a => (win0_3.index t0) a * main_v2.ty.shape.size a) = fun _ => 0 := funext fun a => by fin_cases a <;> decide
  show ((cfg0.win 3).blk t0).view.read (Elt F) (arrs m c 3) = _
  exact Memref.read_access_unit_zero (Elt F) main_v2 hz _ _

/-- The weight array the region finds, on extended reals: the flat weights reshaped to 32x3x3x32 with the filter axis
    moved last; entry (kh, kw, ch, f) is the flat word of filter f, tap (kh, kw), channel ch. -/
theorem V_main_v2_apply (mI : (ℓ : Loc nD τ sig) → Buf (Elt Ideal) ℓ) (c : Dev nD) (kh kw : Fin 3) (ch f : Fin 32) :
    (V (F := Ideal) mI c main_v2 : S3x3x32x32.Idx → EReal) (ix4 kh kw ch f) = mI ((c : Thread nD τ).loc main_arg1) (Cert.Conv.wpos f kh kw ch) := by
  have e : (V (F := Ideal) mI c main_v2 : S3x3x32x32.Idx → EReal)
      = truncf (F := Ideal) .bf16 (transpose S3x3x32x32 [1, 2, 3, 0] (shapeCast S32x3x3x32 (mI ((c : Thread nD τ).loc main_arg1)) shapeCasts_S9216_S32x3x3x32) transposes_S32x3x3x32_S3x3x32x32_1_2_3_0) bitsLt_bf16_f32 := by
    dsimp only [V, hostOps0]; after_results; rfl
  rw [e, ValueIdx.truncf_apply,
    transpose_apply [1, 2, 3, 0] _ transposes_S32x3x3x32_S3x3x32x32_1_2_3_0 (ix4 kh kw ch f) (ix4 f kh kw ch : S32x3x3x32.Idx) (fun b => by
      match b with
      | ⟨0, _⟩ => rfl
      | ⟨1, _⟩ => rfl
      | ⟨2, _⟩ => rfl
      | ⟨3, _⟩ => rfl),
    shapeCast_apply _ shapeCasts_S9216_S32x3x3x32 (ix4 f kh kw ch : S32x3x3x32.Idx) (Cert.Conv.wpos f kh kw ch) (by
      rw [Shape.rowMajor_val_one, Shape.rowMajor_val_four]
      show f.val * 288 + kh.val * 96 + kw.val * 32 + ch.val = ((f.val * 3 + kh.val) * 3 + kw.val) * 32 + ch.val
      omega)]

/-- The weight window, at every point, on extended reals: entry (kh, kw, ch, f) is the flat weights' word for filter f,
    tap (kh, kw), channel ch. -/
theorem held3_apply (mI : (ℓ : Loc nD τ sig) → Buf (Elt Ideal) ℓ) (c : Dev nD) (t : Fin cfg0.N) (kh kw : Fin 3) (ch f : Fin 32) :
    held (F := Ideal) mI c 3 t (ix4 kh kw ch f) = mI ((c : Thread nD τ).loc main_arg1) (Cert.Conv.wpos f kh kw ch) := by
  rw [held3_whole]
  exact V_main_v2_apply mI c kh kw ch f

end Cert.KernelIdeal.Conv

end
-- ==== Proof.KI.ResultBlocks.lean ====
/-
  The result window's blocks in the result array: entry (0, r, q, f) of the block of grid point (b, h) is entry
  (b, 37h + r, q, f) of the result, and the 16 x 6 blocks of 37 rows cover all 16 x 222 rows.
-/
import proofs.«117001_j77816217469233_1_alg».proof.Proof.Gen.KernelIdeal.Launch
import proofs.«117001_j77816217469233_1_alg».proof.Proof.Gen.KernelIdeal.Skeleton
import proofs.«117001_j77816217469233_1_alg».proof.Proof.Gen.KernelIdeal.Points
import proofs.«117001_j77816217469233_1_alg».proof.Proof.KI.Stored
import proofs.«117001_j77816217469233_1_alg».proof.Proof.KI.Frame
import proofs.«117001_j77816217469233_1_alg».proof.Proof.KI.Point
import proofs.«117001_j77816217469233_1_alg».proof.Proof.ConvSpec
import Idealize.ShloMosaic.PureOps.Ideal
import Idealize.ShloMosaic.Lib.Pipeline.Value
import Idealize.ShloMosaic.Lib.Pipeline.FrameBody
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The result window's block index at each grid point, decided over the 96 points: the point's two coordinates on
    the image and row axes, zero on the other two; and the coordinates of point t are t / 6 and t % 6. -/
theorem idx_facts5 : ∀ t : Fin cfg0.N, win0_5.index t (0 : Fin 4) = (grid0.coords t 0).val
    ∧ win0_5.index t (1 : Fin 4) = (grid0.coords t 1).val
    ∧ win0_5.index t (2 : Fin 4) = 0
    ∧ win0_5.index t (3 : Fin 4) = 0
    ∧ (grid0.coords t 0).val = t.val / 6
    ∧ (grid0.coords t 1).val = t.val % 6 :=
  (by decide +kernel : ∀ t : Fin grid0.N, _)

/-- An index of the result array is in point t's block iff each coordinate is in the block's range on its axis. -/
theorem mem_blk5 (t : Fin cfg0.N) (i : S16x222x222x32.Idx) :
    i ∈ ((cfg0.win 5).blk t).view.set ↔ ∀ a : Fin 4, win0_5.index t a * S1x37x222x32.size a ≤ (i a).val ∧ (i a).val < win0_5.index t a * S1x37x222x32.size a + S1x37x222x32.size a := by
  show i ∈ ((View.whole main_v3).slice (win0_5.rect t)).set ↔ _
  rw [View.set_slice_whole, Rect.mem_set_unit]
  exact Iff.rfl

/-- Where entry y of the result block of point (b, h) sits in the result array: image b, row 37h + y₁. -/
theorem blk5_emb (c : Dev nD) (t : Fin cfg0.N) (r : Fin 37) (q : Fin 222) (f : Fin 32) :
    ((cfg0.win 5).blk t).view.emb (ix4 (0 : Fin 1) r q f)
      = (ix4 (imgOf t) (⟨37 * (tileOf t).val + r.val, by have := (tileOf t).isLt; have := r.isLt; omega⟩ : Fin 222) q f : S16x222x222x32.Idx) := by
  obtain ⟨e0, e1, e2, e3, -, -⟩ := idx_facts5 t
  funext a; apply Fin.ext
  match a with
  | ⟨0, _⟩ => show win0_5.index t (0 : Fin 4) * 1 + 1 * 0 = (grid0.coords t 0).val; omega
  | ⟨1, _⟩ => show win0_5.index t (1 : Fin 4) * 37 + 1 * r.val = 37 * (grid0.coords t 1).val + r.val; omega
  | ⟨2, _⟩ => show win0_5.index t (2 : Fin 4) * 222 + 1 * q.val = q.val; omega
  | ⟨3, _⟩ => show win0_5.index t (3 : Fin 4) * 32 + 1 * f.val = f.val; omega

/-- Every entry of the result array lies in the block of some point, and every point writes its block back. -/
theorem cover5 (i : S16x222x222x32.Idx) :
    ∃ t : Fin cfg0.N, (cfg0.win 5).flush t = true ∧ i ∈ ((cfg0.win 5).blk t).view.set := by
  have hi0 : (i 0).val < 16 := (i 0).isLt
  have hi1 : (i 1).val < 222 := (i 1).isLt
  have hi2 : (i 2).val < 222 := (i 2).isLt
  have hi3 : (i 3).val < 32 := (i 3).isLt
  have hN : (i 0).val * 6 + (i 1).val / 37 < cfg0.N := by
    show _ < grid0.N
    rw [N_0]; omega
  obtain ⟨e0, e1, e2, e3, e4, e5⟩ := idx_facts5 ⟨(i 0).val * 6 + (i 1).val / 37, hN⟩
  refine ⟨⟨(i 0).val * 6 + (i 1).val / 37, hN⟩, flush0_5 _, ?_⟩
  rw [mem_blk5]
  have ht : (⟨(i 0).val * 6 + (i 1).val / 37, hN⟩ : Fin cfg0.N).val = (i 0).val * 6 + (i 1).val / 37 := rfl
  generalize (⟨(i 0).val * 6 + (i 1).val / 37, hN⟩ : Fin cfg0.N) = t at e0 e1 e2 e3 e4 e5 ht ⊢
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 37 ≤ (i 1).val ∧ (i 1).val < win0_5.index t (1 : Fin 4) * 37 + 37; omega
  | ⟨2, _⟩ => show win0_5.index t (2 : Fin 4) * 222 ≤ (i 2).val ∧ (i 2).val < win0_5.index t (2 : Fin 4) * 222 + 222; omega
  | ⟨3, _⟩ => show win0_5.index t (3 : Fin 4) * 32 ≤ (i 3).val ∧ (i 3).val < win0_5.index t (3 : Fin 4) * 32 + 32; omega

end Cert.KernelIdeal.Conv

end
-- ==== Proof.KI.StoredAt.lean ====
/-
  The value the kernel body stores, read at one entry.

  Entry (0, r, q, f) of the stored block is the sum over the nine taps (kh, kw) and the 32 input channels c of
  the joined rows at (r + kh, q + kw, c) times the tap's weight at (c, f), plus the bias at f.

  The joined 39 rows are a concatenation along the row axis of the 37-row block and the two single rows, each with
  its leading unit axis dropped; the narrowing format change is the identity on extended reals. Each tap takes the
  37x222 window at offset (kh, kw), lays it out as 8214 pixels by 32 channels (pixel r*222 + q), multiplies by the
  tap's 32x32 weights into a zero accumulator, which at the extended reals is the plain sum over the contracted
  channel, and lays the product back out as 37x222x32. The nine products are added one after another onto zero and
  the bias, broadcast along the two pixel axes, is added last; the nine-term chain is then regrouped as the double
  sum over the three row offsets and the three column offsets.
-/
import proofs.«117001_j77816217469233_1_alg».proof.Proof.KI.Stored
import Idealize.ShloMosaic.PureOps.Ideal
import Idealize.ShloMosaic.PureOps.Ideal.Laws
import Idealize.ShloMosaic.Lib.Pipeline.Value
import Idealize.ShloMosaic.Lib.ValueIdx
import Mathlib.Algebra.BigOperators.Fin

noncomputable section

namespace Cert.KernelIdeal.Conv

open Cert.KernelIdeal Cert.KernelIdeal.Gen
open Idealize.ShloMosaic Idealize.ShloMosaic.ValueIdx
open scoped BigOperators

/-! ## The joined rows at an entry -/

/-- The block with its leading unit axis dropped, at (r, q, c), is the block at (0, r, q, c). -/
theorem block_cast_apply (x0 : Vec Ideal S1x37x224x32 .f32) (r : Fin 37) (q : Fin 224) (c : Fin 32) :
    shapeCast S37x224x32 x0 shapeCasts_S1x37x224x32_S37x224x32 (ix3 r q c) = x0 (ix4 (0 : Fin 1) r q c) := by
  refine shapeCast_apply x0 shapeCasts_S1x37x224x32_S37x224x32 (ix3 r q c) (ix4 (0 : Fin 1) r q c) ?_
  rewrite [Shape.rowMajor_val_four, Shape.rowMajor_val_three]
  show (((0 : Nat) * 37 + r.val) * 224 + q.val) * 32 + c.val = (r.val * 224 + q.val) * 32 + c.val
  omega

/-- A single row with its leading unit axis dropped, at (0, q, c), is the row at (0, 0, q, c). -/
theorem row_cast_apply (x1 : Vec Ideal S1x1x224x32 .f32) (q : Fin 224) (c : Fin 32) :
    shapeCast S1x224x32 x1 shapeCasts_S1x1x224x32_S1x224x32 (ix3 (0 : Fin 1) q c) = x1 (ix4 (0 : Fin 1) (0 : Fin 1) q c) := by
  refine shapeCast_apply x1 shapeCasts_S1x1x224x32_S1x224x32 (ix3 (0 : Fin 1) q c) (ix4 (0 : Fin 1) (0 : Fin 1) q c) ?_
  rewrite [Shape.rowMajor_val_four, Shape.rowMajor_val_three]
  show (((0 : Nat) * 1 + 0) * 224 + q.val) * 32 + c.val = ((0 : Nat) * 224 + q.val) * 32 + c.val
  omega

/-- The joined rows, entry by entry. -/
theorem pay2_apply (x0 : Vec Ideal S1x37x224x32 .f32) (x1 x2 : Vec Ideal S1x1x224x32 .f32)
    (r : Fin 39) (q : Fin 224) (c : Fin 32) :
    k0_pay2 (F := Ideal) x0 x1 x2 (ix3 r q c) = rows39 x0 x1 x2 r q c := by
  unfold k0_pay2 rows39
  show concatenate S39x224x32 0
      [⟨S37x224x32, shapeCast S37x224x32 x0 shapeCasts_S1x37x224x32_S37x224x32⟩,
       ⟨S1x224x32, shapeCast S1x224x32 x1 shapeCasts_S1x1x224x32_S1x224x32⟩,
       ⟨S1x224x32, shapeCast S1x224x32 x2 shapeCasts_S1x1x224x32_S1x224x32⟩]
      concatenates_S37x224x32_S1x224x32_S1x224x32_S39x224x32_d0 (ix3 r q c) = _
  by_cases h : r.val < 37
  · rw [dif_pos h]
    refine (concatenate_apply_piece (0 : Fin S39x224x32.rank)
      [⟨S37x224x32, shapeCast S37x224x32 x0 shapeCasts_S1x37x224x32_S37x224x32⟩,
       ⟨S1x224x32, shapeCast S1x224x32 x1 shapeCasts_S1x1x224x32_S1x224x32⟩,
       ⟨S1x224x32, shapeCast S1x224x32 x2 shapeCasts_S1x1x224x32_S1x224x32⟩]
      concatenates_S37x224x32_S1x224x32_S1x224x32_S39x224x32_d0 (ix3 r q c) 0 (by show 0 < 3; omega) S37x224x32 _ rfl rfl 0 rfl
      (ix3 (⟨r.val, h⟩ : Fin 37) q c) ?_ ?_).trans (block_cast_apply x0 ⟨r.val, h⟩ q c)
    · intro b hb
      match b, hb with
      | ⟨0, _⟩, hb => exact absurd rfl hb
      | ⟨1, _⟩, _ => rfl
      | ⟨2, _⟩, _ => rfl
    · show 0 + r.val = r.val
      omega
  · rw [dif_neg h]
    by_cases h37 : r.val = 37
    · rw [if_pos h37]
      refine (concatenate_apply_piece (0 : Fin S39x224x32.rank)
      [⟨S37x224x32, shapeCast S37x224x32 x0 shapeCasts_S1x37x224x32_S37x224x32⟩,
       ⟨S1x224x32, shapeCast S1x224x32 x1 shapeCasts_S1x1x224x32_S1x224x32⟩,
       ⟨S1x224x32, shapeCast S1x224x32 x2 shapeCasts_S1x1x224x32_S1x224x32⟩]
        concatenates_S37x224x32_S1x224x32_S1x224x32_S39x224x32_d0 (ix3 r q c) 1 (by show 1 < 3; omega) S1x224x32 _ rfl rfl 37 rfl
        (ix3 (0 : Fin 1) q c) ?_ ?_).trans (row_cast_apply x1 q c)
      · intro b hb
        match b, hb with
        | ⟨0, _⟩, hb => exact absurd rfl hb
        | ⟨1, _⟩, _ => rfl
        | ⟨2, _⟩, _ => rfl
      · show 37 + 0 = r.val
        omega
    · rw [if_neg h37]
      have hr := r.isLt
      refine (concatenate_apply_piece (0 : Fin S39x224x32.rank)
      [⟨S37x224x32, shapeCast S37x224x32 x0 shapeCasts_S1x37x224x32_S37x224x32⟩,
       ⟨S1x224x32, shapeCast S1x224x32 x1 shapeCasts_S1x1x224x32_S1x224x32⟩,
       ⟨S1x224x32, shapeCast S1x224x32 x2 shapeCasts_S1x1x224x32_S1x224x32⟩]
        concatenates_S37x224x32_S1x224x32_S1x224x32_S39x224x32_d0 (ix3 r q c) 2 (by show 2 < 3; omega) S1x224x32 _ rfl rfl 38 rfl
        (ix3 (0 : Fin 1) q c) ?_ ?_).trans (row_cast_apply x2 q c)
      · intro b hb
        match b, hb with
        | ⟨0, _⟩, hb => exact absurd rfl hb
        | ⟨1, _⟩, _ => rfl
        | ⟨2, _⟩, _ => rfl
      · show 38 + 0 = r.val
        omega

/-! ## One tap's product at an entry -/

/-- The product's left operand is read at the output's row … -/
theorem lhs_dot_0 (i : S8214x32.Idx) (k : dot_S8214x32_S32x32_S8214x32_1_0_0_1_n_n.contr.Idx) :
    (dot_S8214x32_S32x32_S8214x32_1_0_0_1_n_n.lhsIdx i k 0).val = (i 0).val := by
  unfold DotDims.lhsIdx
  rw [dif_neg (show ¬(0 : Fin S8214x32.rank) ∈ dot_S8214x32_S32x32_S8214x32_1_0_0_1_n_n.lhsBatch by decide), dif_pos (show (0 : Fin S8214x32.rank) ∈ dot_S8214x32_S32x32_S8214x32_1_0_0_1_n_n.lhsNonContracting by decide)]
  rfl
/-- … and at the contracted channel; -/
theorem lhs_dot_1 (i : S8214x32.Idx) (k : dot_S8214x32_S32x32_S8214x32_1_0_0_1_n_n.contr.Idx) :
    (dot_S8214x32_S32x32_S8214x32_1_0_0_1_n_n.lhsIdx i k 1).val = (k ⟨0, by decide⟩).val :=
  dot_S8214x32_S32x32_S8214x32_1_0_0_1_n_n.lhsIdx_val_of_single rfl i k
/-- the right operand at the contracted channel … -/
theorem rhs_dot_0 (i : S8214x32.Idx) (k : dot_S8214x32_S32x32_S8214x32_1_0_0_1_n_n.contr.Idx) :
    (dot_S8214x32_S32x32_S8214x32_1_0_0_1_n_n.rhsIdx i k 0).val = (k ⟨0, by decide⟩).val :=
  dot_S8214x32_S32x32_S8214x32_1_0_0_1_n_n.rhsIdx_val_of_single rfl i k
/-- … and at the output's column. -/
theorem rhs_dot_1 (i : S8214x32.Idx) (k : dot_S8214x32_S32x32_S8214x32_1_0_0_1_n_n.contr.Idx) :
    (dot_S8214x32_S32x32_S8214x32_1_0_0_1_n_n.rhsIdx i k 1).val = (i 1).val := by
  unfold DotDims.rhsIdx
  rw [dif_neg (show ¬(1 : Fin S32x32.rank) ∈ dot_S8214x32_S32x32_S8214x32_1_0_0_1_n_n.rhsBatch by decide), dif_pos (show (1 : Fin S32x32.rank) ∈ dot_S8214x32_S32x32_S8214x32_1_0_0_1_n_n.rhsNonContracting by decide)]
  rfl

/-- One tap: the 37x222 window of the joined rows at offset (kh, kw), as 8214 pixels by 32 channels, times the tap's
    32x32 weights into a zero accumulator, laid back out as 37x222x32. -/
def tap (kh kw : Fin 3) (h : S39x224x32.Slices ![kh.val, kw.val, 0] S37x222x32)
    (v7 : FVec Ideal S39x224x32 .bf16) (wv : Vec Ideal S1x1x32x32 .bf16) : FVec Ideal S37x222x32 .f32 :=
  shapeCast S37x222x32
    (matmul dot_S8214x32_S32x32_S8214x32_1_0_0_1_n_n none
      (shapeCast S8214x32 (extractStridedSlice S37x222x32 ![kh.val, kw.val, 0] v7 h) shapeCasts_S37x222x32_S8214x32)
      (shapeCast S32x32 wv shapeCasts_S1x1x32x32_S32x32 : FVec Ideal S32x32 .bf16)
      (constant (F := Ideal) S8214x32 .f32 0x00000000#32))
    shapeCasts_S8214x32_S37x222x32

/-- A tap's product at (r, q, f): the sum over the 32 channels of the window's entry times the weight. -/
theorem tap_apply (kh kw : Fin 3) (h : S39x224x32.Slices ![kh.val, kw.val, 0] S37x222x32)
    (v7 : FVec Ideal S39x224x32 .bf16) (wv : Vec Ideal S1x1x32x32 .bf16) (r : Fin 37) (q : Fin 222) (f : Fin 32) :
    tap kh kw h v7 wv (ix3 r q f)
      = ∑ c : Fin 32, v7 (ix3 (⟨r.val + kh.val, by have := r.isLt; have := kh.isLt; omega⟩ : Fin 39)
            (⟨q.val + kw.val, by have := q.isLt; have := kw.isLt; omega⟩ : Fin 224) c)
          * wv (ix4 (0 : Fin 1) (0 : Fin 1) c f) := by
  have hp : r.val * 222 + q.val < 8214 := by have := r.isLt; have := q.isLt; omega
  unfold tap
  refine (shapeCast_apply _ shapeCasts_S8214x32_S37x222x32 (ix3 r q f) (ix2 (⟨r.val * 222 + q.val, hp⟩ : Fin 8214) f) ?_).trans ?_
  · rewrite [Shape.rowMajor_val_two, Shape.rowMajor_val_three]
    show (r.val * 222 + q.val) * 32 + f.val = (r.val * 222 + q.val) * 32 + f.val
    rfl
  simp only [matmul]
  rw [Ideal.matmul_constant_zero_apply, ← Equiv.sum_comp (contrEquiv1 dot_S8214x32_S32x32_S8214x32_1_0_0_1_n_n 32 rfl rfl).symm]
  refine Finset.sum_congr rfl fun c _ => ?_
  have hk := contrEquiv1_symm_val dot_S8214x32_S32x32_S8214x32_1_0_0_1_n_n 32 rfl rfl c
  have el : dot_S8214x32_S32x32_S8214x32_1_0_0_1_n_n.lhsIdx (ix2 (⟨r.val * 222 + q.val, hp⟩ : Fin 8214) f) ((contrEquiv1 dot_S8214x32_S32x32_S8214x32_1_0_0_1_n_n 32 rfl rfl).symm c)
      = ix2 (⟨r.val * 222 + q.val, hp⟩ : Fin 8214) c := funext fun a => Fin.ext (by
    match a with
    | ⟨0, _⟩ => exact lhs_dot_0 _ _
    | ⟨1, _⟩ => exact (lhs_dot_1 _ _).trans hk)
  have er : dot_S8214x32_S32x32_S8214x32_1_0_0_1_n_n.rhsIdx (ix2 (⟨r.val * 222 + q.val, hp⟩ : Fin 8214) f) ((contrEquiv1 dot_S8214x32_S32x32_S8214x32_1_0_0_1_n_n 32 rfl rfl).symm c)
      = ix2 c f := funext fun a => Fin.ext (by
    match a with
    | ⟨0, _⟩ => exact (rhs_dot_0 _ _).trans hk
    | ⟨1, _⟩ => exact rhs_dot_1 _ _)
  rw [el, er]
  have e1 : shapeCast S8214x32 (extractStridedSlice S37x222x32 ![kh.val, kw.val, 0] v7 h) shapeCasts_S37x222x32_S8214x32
        (ix2 (⟨r.val * 222 + q.val, hp⟩ : Fin 8214) c)
      = v7 (ix3 (⟨r.val + kh.val, by have := r.isLt; have := kh.isLt; omega⟩ : Fin 39)
            (⟨q.val + kw.val, by have := q.isLt; have := kw.isLt; omega⟩ : Fin 224) c) := by
    refine (shapeCast_apply _ shapeCasts_S37x222x32_S8214x32 (ix2 (⟨r.val * 222 + q.val, hp⟩ : Fin 8214) c) (ix3 r q c) ?_).trans ?_
    · rewrite [Shape.rowMajor_val_two, Shape.rowMajor_val_three]
      show (r.val * 222 + q.val) * 32 + c.val = (r.val * 222 + q.val) * 32 + c.val
      rfl
    · refine extractStridedSlice_apply ![kh.val, kw.val, 0] v7 h (ix3 r q c) _ (fun a => ?_)
      match a with
      | ⟨0, _⟩ => show r.val + kh.val = kh.val + r.val; omega
      | ⟨1, _⟩ => show q.val + kw.val = kw.val + q.val; omega
      | ⟨2, _⟩ => show c.val = 0 + c.val; omega
  have e2 : (shapeCast S32x32 wv shapeCasts_S1x1x32x32_S32x32 : FVec Ideal S32x32 .bf16) (ix2 c f)
      = wv (ix4 (0 : Fin 1) (0 : Fin 1) c f) := by
    refine shapeCast_apply wv shapeCasts_S1x1x32x32_S32x32 (ix2 c f) (ix4 (0 : Fin 1) (0 : Fin 1) c f) ?_
    rewrite [Shape.rowMajor_val_four, Shape.rowMajor_val_two]
    show (((0 : Nat) * 1 + 0) * 32 + c.val) * 32 + f.val = c.val * 32 + f.val
    omega
  rw [e1, e2]

/-- A tap of the joined rows at (r, q, f), by the rows' entries. -/
theorem tap_rows_apply (x0 : Vec Ideal S1x37x224x32 .f32) (x1 x2 : Vec Ideal S1x1x224x32 .f32)
    (kh kw : Fin 3) (h : S39x224x32.Slices ![kh.val, kw.val, 0] S37x222x32) (wv : Vec Ideal S1x1x32x32 .bf16)
    (r : Fin 37) (q : Fin 222) (f : Fin 32) :
    tap kh kw h (k0_pay2 (F := Ideal) x0 x1 x2) wv (ix3 r q f)
      = ∑ c : Fin 32, rows39 x0 x1 x2 ⟨r.val + kh.val, by have := r.isLt; have := kh.isLt; omega⟩
            ⟨q.val + kw.val, by have := q.isLt; have := kw.isLt; omega⟩ c
          * wv (ix4 (0 : Fin 1) (0 : Fin 1) c f) :=
  (tap_apply kh kw h (k0_pay2 (F := Ideal) x0 x1 x2) wv r q f).trans
    (Finset.sum_congr rfl fun c _ => by rw [pay2_apply])

/-! ## The three payloads as chains of taps -/

/-- The first three taps, added one after another onto zero. -/
theorem pay3_eq (x0 : Vec Ideal S1x37x224x32 .f32) (x1 x2 : Vec Ideal S1x1x224x32 .f32)
    (w00 w01 w02 : Vec Ideal S1x1x32x32 .bf16) :
    k0_pay3 (F := Ideal) x0 x1 x2 w00 w01 w02
      = addf (addf (addf (broadcast S37x222x32 (Ideal.ofBits .f32 0x00000000#32))
            (tap 0 0 slices_S39x224x32_o0_0_0_S37x222x32 (k0_pay2 (F := Ideal) x0 x1 x2) w00))
          (tap 0 1 slices_S39x224x32_o0_1_0_S37x222x32 (k0_pay2 (F := Ideal) x0 x1 x2) w01))
        (tap 0 2 slices_S39x224x32_o0_2_0_S37x222x32 (k0_pay2 (F := Ideal) x0 x1 x2) w02) := rfl

/-- The next five taps, added onto the running sum. -/
theorem pay4_eq (v7 : FVec Ideal S39x224x32 .bf16) (v29 : FVec Ideal S37x222x32 .f32)
    (w10 w11 w12 w20 w21 : Vec Ideal S1x1x32x32 .bf16) :
    k0_pay4 (F := Ideal) v7 v29 w10 w11 w12 w20 w21
      = addf (addf (addf (addf (addf v29
            (tap 1 0 slices_S39x224x32_o1_0_0_S37x222x32 v7 w10))
            (tap 1 1 slices_S39x224x32_o1_1_0_S37x222x32 v7 w11))
            (tap 1 2 slices_S39x224x32_o1_2_0_S37x222x32 v7 w12))
            (tap 2 0 slices_S39x224x32_o2_0_0_S37x222x32 v7 w20))
            (tap 2 1 slices_S39x224x32_o2_1_0_S37x222x32 v7 w21) := rfl

/-- The last tap added onto the running sum, then the bias along the channel axis, as a block with a leading unit axis. -/
theorem pay1_eq (v7 : FVec Ideal S39x224x32 .bf16) (v64 : FVec Ideal S37x222x32 .f32)
    (w22 : Vec Ideal S1x1x32x32 .bf16) (bb : Vec Ideal S32 .f32) :
    k0_pay1 (F := Ideal) v7 v64 w22 bb
      = shapeCast S1x37x222x32
          (addf (addf v64 (tap 2 2 slices_S39x224x32_o2_2_0_S37x222x32 v7 w22))
            (broadcastTo S37x222x32 (shapeCast S1x1x32 bb shapeCasts_S32_S1x1x32 : FVec Ideal S1x1x32 .f32) broadcasts_S1x1x32_S37x222x32))
          shapeCasts_S37x222x32_S1x37x222x32 := rfl

/-- The bias, broadcast along the two pixel axes, at (r, q, f) is the bias at f. -/
theorem bias_apply (bb : Vec Ideal S32 .f32) (r : Fin 37) (q : Fin 222) (f : Fin 32) :
    broadcastTo S37x222x32 (shapeCast S1x1x32 bb shapeCasts_S32_S1x1x32 : FVec Ideal S1x1x32 .f32) broadcasts_S1x1x32_S37x222x32 (ix3 r q f)
      = bb (ix1 f) := by
  refine (broadcastTo_apply _ broadcasts_S1x1x32_S37x222x32 (ix3 r q f) (ix3 (0 : Fin 1) (0 : Fin 1) f) (fun a => ?_)).trans ?_
  · match a with
    | ⟨0, _⟩ => show 0 = if (1 : Nat) = 1 then 0 else r.val; rw [if_pos rfl]
    | ⟨1, _⟩ => show 0 = if (1 : Nat) = 1 then 0 else q.val; rw [if_pos rfl]
    | ⟨2, _⟩ => show f.val = if (32 : Nat) = 1 then 0 else f.val; rw [if_neg (by decide)]
  · refine shapeCast_apply bb shapeCasts_S32_S1x1x32 (ix3 (0 : Fin 1) (0 : Fin 1) f) (ix1 f) ?_
    rewrite [Shape.rowMajor_val_one, Shape.rowMajor_val_three]
    show f.val = ((0 : Nat) * 1 + 0) * 32 + f.val
    omega

/-! ## The stored value at an entry -/

theorem stored_apply (x0 : Vec Ideal S1x37x224x32 .f32) (x1 x2 : Vec Ideal S1x1x224x32 .f32)
    (w : Fin 3 → Fin 3 → Vec Ideal S1x1x32x32 .bf16) (bb : Vec Ideal S32 .f32)
    (r : Fin 37) (q : Fin 222) (f : Fin 32) :
    stored (F := Ideal) x0 x1 x2 w bb (ix4 (0 : Fin 1) r q f)
      = (∑ kh : Fin 3, ∑ kw : Fin 3, ∑ c : Fin 32,
          rows39 x0 x1 x2 ⟨r.val + kh.val, by have := r.isLt; have := kh.isLt; omega⟩ ⟨q.val + kw.val, by have := q.isLt; have := kw.isLt; omega⟩ c
            * w kh kw (ix4 (0 : Fin 1) (0 : Fin 1) c f))
        + bb (ix1 f) := by
  unfold stored
  rw [pay1_eq, pay4_eq, pay3_eq]
  refine (shapeCast_apply _ shapeCasts_S37x222x32_S1x37x222x32 (ix4 (0 : Fin 1) r q f) (ix3 r q f) ?_).trans ?_
  · rewrite [Shape.rowMajor_val_three, Shape.rowMajor_val_four]
    show (r.val * 222 + q.val) * 32 + f.val = (((0 : Nat) * 37 + r.val) * 222 + q.val) * 32 + f.val
    omega
  simp only [addf_apply, broadcast_apply]
  rw [bias_apply,
    tap_rows_apply x0 x1 x2 0 0 slices_S39x224x32_o0_0_0_S37x222x32, tap_rows_apply x0 x1 x2 0 1 slices_S39x224x32_o0_1_0_S37x222x32, tap_rows_apply x0 x1 x2 0 2 slices_S39x224x32_o0_2_0_S37x222x32,
    tap_rows_apply x0 x1 x2 1 0 slices_S39x224x32_o1_0_0_S37x222x32, tap_rows_apply x0 x1 x2 1 1 slices_S39x224x32_o1_1_0_S37x222x32, tap_rows_apply x0 x1 x2 1 2 slices_S39x224x32_o1_2_0_S37x222x32,
    tap_rows_apply x0 x1 x2 2 0 slices_S39x224x32_o2_0_0_S37x222x32, tap_rows_apply x0 x1 x2 2 1 slices_S39x224x32_o2_1_0_S37x222x32, tap_rows_apply x0 x1 x2 2 2 slices_S39x224x32_o2_2_0_S37x222x32,
    Ideal.ofBits_zero_f32, zero_add]
  simp only [Fin.sum_univ_three, add_assoc]

end Cert.KernelIdeal.Conv

end
-- ==== Proof.KI.Final.lean ====
/-
  From the blocks to the whole result, on extended reals.

  Entry (0, r, q, f) of what grid point (b, h) stores is, by the body's arithmetic, the sum over the nine taps and
  the 32 channels of the joined 39 rows at (r + kh, q + kw, c) times the weight block's entry (kh, kw, c, f), plus the
  bias of f. The joined rows at point (b, h) are rows 37h .. 37h+38 of image b — the block's 37 rows and the two rows
  after it are consecutive rows of one image —, and the weight block's entry is the flat weights' word for (f, kh, kw, c).
  So the stored entry is the convolution's entry (b, 37h + r, q, f): each point writes back its block of ONE function of
  the arguments, the blocks cover the result, and the result array ends holding the convolution.
-/
import proofs.«117001_j77816217469233_1_alg».proof.Proof.Gen.KernelIdeal.Launch
import proofs.«117001_j77816217469233_1_alg».proof.Proof.Gen.KernelIdeal.Skeleton
import proofs.«117001_j77816217469233_1_alg».proof.Proof.Gen.KernelIdeal.Points
import proofs.«117001_j77816217469233_1_alg».proof.Proof.KI.Stored
import proofs.«117001_j77816217469233_1_alg».proof.Proof.KI.Frame
import proofs.«117001_j77816217469233_1_alg».proof.Proof.KI.Point
import proofs.«117001_j77816217469233_1_alg».proof.Proof.KI.HeldAt
import proofs.«117001_j77816217469233_1_alg».proof.Proof.KI.ResultBlocks
import proofs.«117001_j77816217469233_1_alg».proof.Proof.KI.StoredAt
import proofs.«117001_j77816217469233_1_alg».proof.Proof.ConvSpec
import Idealize.ShloMosaic.PureOps.Ideal
import Idealize.ShloMosaic.Lib.Pipeline.Value
import Idealize.ShloMosaic.Lib.Pipeline.FrameBody
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The convolution of the launched arguments: what the result array is shown to end at. -/
abbrev target (c : Dev nD) : S16x222x222x32.Idx → EReal :=
  Cert.Conv.conv (m ((c : Thread nD τ).loc main_arg0)) (m ((c : Thread nD τ).loc main_arg1)) (m ((c : Thread nD τ).loc main_arg2))

theorem off4 : (![0, 0, 0, 0] : Fin 4 → ℕ) = fun _ => 0 := funext fun a => by fin_cases a <;> rfl
theorem off1 : (![0] : Fin 1 → ℕ) = fun _ => 0 := funext fun a => by fin_cases a <;> rfl

/-- Tap (kh, kw)'s weight matrix, entry (c, f), is entry (kh, kw, c, f) of the weight block. -/
theorem wtaps_apply (wt : Vec Ideal S3x3x32x32 .bf16) (kh kw : Fin 3) (ch f : Fin 32) :
    wtaps wt kh kw (ix4 (0 : Fin 1) (0 : Fin 1) ch f) = wt (ix4 kh kw ch f) := by
  fin_cases kh <;> fin_cases kw <;>
  · refine congrArg wt (funext fun a => Fin.ext ?_)
    match a with
    | ⟨0, _⟩ => rfl
    | ⟨1, _⟩ => rfl
    | ⟨2, _⟩ => exact (Nat.zero_add _).trans (Nat.one_mul _)
    | ⟨3, _⟩ => exact (Nat.zero_add _).trans (Nat.one_mul _)

/-- The stored block, entry by entry, over what the five buffers read as. -/
theorem out5_apply (x0 : Vec Ideal S1x37x224x32 .f32) (x1 x2 : Vec Ideal S1x1x224x32 .f32) (wt : Vec Ideal S3x3x32x32 .bf16)
    (bb : Vec Ideal S32 .f32) (r : Fin 37) (q : Fin 222) (f : Fin 32) :
    out5 (F := Ideal) x0 x1 x2 wt bb (ix4 (0 : Fin 1) r q f)
      = (∑ kh : Fin 3, ∑ kw : Fin 3, ∑ ch : Fin 32,
          rows39 x0 x1 x2 ⟨r.val + kh.val, by have := r.isLt; have := kh.isLt; omega⟩ ⟨q.val + kw.val, by have := q.isLt; have := kw.isLt; omega⟩ ch
            * wt (ix4 kh kw ch f))
        + bb (ix1 f) := by
  unfold out5
  rw [View.canon_unit_zero off4, View.ld_unit_zero off4, View.ld_unit_zero off4, View.ld_unit_zero off4, View.ld_unit_zero off1,
    stored_apply]
  simp only [wtaps_apply]

/-- The joined rows at grid point (b, h) are consecutive rows of image b: joined row r + kh is image row 37h + r + kh. -/
theorem rows39_held (c : Dev nD) (t : Fin cfg0.N) (r : Fin 37) (q : Fin 222) (kh kw : Fin 3) (ch : Fin 32) :
    rows39 (held m c 0 t) (held m c 1 t) (held m c 2 t)
        ⟨r.val + kh.val, by have := r.isLt; have := kh.isLt; omega⟩ ⟨q.val + kw.val, by have := q.isLt; have := kw.isLt; omega⟩ ch
      = m ((c : Thread nD τ).loc main_arg0)
          (Cert.Conv.tap (imgOf t) (⟨37 * (tileOf t).val + r.val, by have := (tileOf t).isLt; have := r.isLt; omega⟩ : Fin 222) q kh kw ch) := by
  have hr := r.isLt; have hk := kh.isLt
  unfold rows39
  split
  · next h =>
    rw [held0_apply]
    refine congrArg _ (funext fun a => Fin.ext ?_)
    match a with
    | ⟨0, _⟩ => rfl
    | ⟨1, _⟩ => show 37 * (tileOf t).val + (r.val + kh.val) = 37 * (tileOf t).val + r.val + kh.val; omega
    | ⟨2, _⟩ => rfl
    | ⟨3, _⟩ => rfl
  · next h =>
    split
    · next h' =>
      rw [held1_apply]
      refine congrArg _ (funext fun a => Fin.ext ?_)
      match a with
      | ⟨0, _⟩ => rfl
      | ⟨1, _⟩ => show 37 * (tileOf t).val + 37 = 37 * (tileOf t).val + r.val + kh.val; simp only at h'; omega
      | ⟨2, _⟩ => rfl
      | ⟨3, _⟩ => rfl
    · next h' =>
      rw [held2_apply]
      refine congrArg _ (funext fun a => Fin.ext ?_)
      match a with
      | ⟨0, _⟩ => rfl
      | ⟨1, _⟩ => show 37 * (tileOf t).val + 38 = 37 * (tileOf t).val + r.val + kh.val; simp only at h h'; omega
      | ⟨2, _⟩ => rfl
      | ⟨3, _⟩ => rfl

/-- What grid point t writes back is its block of the convolution. -/
theorem flushed_eq (c : Dev nD) (t : Fin cfg0.N) :
    (dats m 0 c).flushed 5 t = ((cfg0.win 5).blk t).view.read (Elt Ideal) (target m c) := by
  funext y
  obtain ⟨r, q, f, rfl⟩ : ∃ (r : Fin 37) (q : Fin 222) (f : Fin 32), y = ix4 (0 : Fin 1) r q f :=
    ⟨y 1, y 2, y 3, funext fun a => by
      match a with
      | ⟨0, _⟩ => exact Fin.ext (by have h : (y 0).val < 1 := (y 0).isLt; show (y 0).val = 0; omega)
      | ⟨1, _⟩ => rfl
      | ⟨2, _⟩ => rfl
      | ⟨3, _⟩ => rfl⟩
  show (dats m 0 c).after 5 t (ix4 (0 : Fin 1) r q f) = _
  rw [after0_5, out5_apply, View.read_apply]
  show _ = target m c (((cfg0.win 5).blk t).view.emb (ix4 (0 : Fin 1) r q f))
  rw [blk5_emb c t r q f]
  refine Eq.trans ?_ (Cert.Conv.conv_apply _ _ _ (imgOf t) _ q f).symm
  congr 1
  · refine Finset.sum_congr rfl fun kh _ => Finset.sum_congr rfl fun kw _ => Finset.sum_congr rfl fun ch _ => ?_
    rw [rows39_held, held3_apply]
  · exact held4_apply m c t f

/-- The result array after the run is the convolution of the arguments. -/
theorem final5 (c : Dev nD) : (dats m 0 c).arrAt 5 cfg0.N = target m c :=
  (dats m 0 c).arrAt_eq_of_cover 5 (target m c) (fun t _ => flushed_eq m c t) cover5

/-- On extended reals, for any values, from any memory whose semaphore counters are zero: every weakly fair execution
    of the program terminates with the result array at the convolution of the arguments, and the arguments unchanged. -/
theorem run_value : θ_run defs (onTc (τ := τ) (main (F := Ideal))) ⟨m, fun _ => 0, ρ⟩ (fun r => ∀ c : Dev nD,
      r.2.mem ((c.tc : Thread nD τ).loc main_v3) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 5).trans (final5 m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.Conv

end
-- ==== Proof.RefConv.lean ====
import proofs.«117001_j77816217469233_1_alg».proof.Proof.ConvSpec
import proofs.«117001_j77816217469233_1_alg».proof.Proof.Gen.ReferenceIdeal.Read
import Mathlib.Algebra.BigOperators.Fin
import Mathlib.Logic.Equiv.Fin.Basic
noncomputable section
namespace Cert.ReferenceIdeal.RefConv
open Cert.ReferenceIdeal Idealize.ShloMosaic
open Cert.ReferenceIdeal.Read Idealize.ShloMosaic.ValueIdx Cert.Conv
open scoped BigOperators

/-- The joined array at channel K * 32 + c of the joined axis is piece K at channel c. -/
theorem joined_piece (x : Vec Ideal S16x224x224x32 .f32) (i : S16x222x222x32.Idx) (k : Fin 288)
    (K : Nat) (hK : K < 9) (c : Fin 32) (hk : k.val = K * 32 + c.val)
    (y : S16x222x222x32.Idx → EReal)
    (hy : ([⟨S16x222x222x32, (val_main_v0 (F := Ideal) x)⟩, ⟨S16x222x222x32, (val_main_v1 (F := Ideal) x)⟩, ⟨S16x222x222x32, (val_main_v2 (F := Ideal) x)⟩, ⟨S16x222x222x32, (val_main_v3 (F := Ideal) x)⟩, ⟨S16x222x222x32, (val_main_v4 (F := Ideal) x)⟩, ⟨S16x222x222x32, (val_main_v5 (F := Ideal) x)⟩, ⟨S16x222x222x32, (val_main_v6 (F := Ideal) x)⟩, ⟨S16x222x222x32, (val_main_v7 (F := Ideal) x)⟩, ⟨S16x222x222x32, (val_main_v8 (F := Ideal) x)⟩] : List ((s : Shape) × (s.Idx → EReal)))[K]'hK = ⟨S16x222x222x32, y⟩) :
    val_main_v9 (F := Ideal) x (lidx_main_v11 i k) = y (ix4 (i 0) (i 1) (i 2) c) := by
  unfold val_main_v9
  refine concatenate_apply_piece (t := S16x222x222x288) 3 [⟨S16x222x222x32, (val_main_v0 (F := Ideal) x)⟩, ⟨S16x222x222x32, (val_main_v1 (F := Ideal) x)⟩, ⟨S16x222x222x32, (val_main_v2 (F := Ideal) x)⟩, ⟨S16x222x222x32, (val_main_v3 (F := Ideal) x)⟩, ⟨S16x222x222x32, (val_main_v4 (F := Ideal) x)⟩, ⟨S16x222x222x32, (val_main_v5 (F := Ideal) x)⟩, ⟨S16x222x222x32, (val_main_v6 (F := Ideal) x)⟩, ⟨S16x222x222x32, (val_main_v7 (F := Ideal) x)⟩, ⟨S16x222x222x32, (val_main_v8 (F := Ideal) x)⟩] _ (lidx_main_v11 i k) K hK S16x222x222x32 y hy rfl (K * 32) ?_ (ix4 (i 0) (i 1) (i 2) c) ?_ ?_
  · interval_cases K <;> rfl
  · intro b hb
    match b with
    | ⟨0, _⟩ => rfl
    | ⟨1, _⟩ => rfl
    | ⟨2, _⟩ => rfl
    | ⟨3, _⟩ => exact absurd rfl hb
  · exact hk.symm

/-- Reading the source array at two indices with the same coordinates. -/
local macro "idx_close" : tactic => `(tactic| (
  congr 1; funext a
  match a with
  | ⟨0, _⟩ => rfl
  | ⟨1, _⟩ => first | rfl | exact Fin.ext (Nat.add_comm _ _)
  | ⟨2, _⟩ => first | rfl | exact Fin.ext (Nat.add_comm _ _)
  | ⟨3, _⟩ => rfl))

/-- The joined array at channel kh * 96 + kw * 32 + c is the image at the pixel shifted by (kh, kw), channel c. -/
theorem joined_apply (x : Vec Ideal S16x224x224x32 .f32) (i : S16x222x222x32.Idx) (kh kw : Nat) (hkh : kh < 3) (hkw : kw < 3)
    (c : Fin 32) (k : Fin 288) (hk : k.val = kh * 96 + kw * 32 + c.val) :
    val_main_v9 (F := Ideal) x (lidx_main_v11 i k) = x (tap (i 0) (i 1) (i 2) ⟨kh, hkh⟩ ⟨kw, hkw⟩ c) := by
  interval_cases kh <;> interval_cases kw
  · rw [joined_piece x i k 0 (by decide) c (by omega) (val_main_v0 (F := Ideal) x) rfl, val_main_v0_apply]; idx_close
  · rw [joined_piece x i k 1 (by decide) c (by omega) (val_main_v1 (F := Ideal) x) rfl, val_main_v1_apply]; idx_close
  · rw [joined_piece x i k 2 (by decide) c (by omega) (val_main_v2 (F := Ideal) x) rfl, val_main_v2_apply]; idx_close
  · rw [joined_piece x i k 3 (by decide) c (by omega) (val_main_v3 (F := Ideal) x) rfl, val_main_v3_apply]; idx_close
  · rw [joined_piece x i k 4 (by decide) c (by omega) (val_main_v4 (F := Ideal) x) rfl, val_main_v4_apply]; idx_close
  · rw [joined_piece x i k 5 (by decide) c (by omega) (val_main_v5 (F := Ideal) x) rfl, val_main_v5_apply]; idx_close
  · rw [joined_piece x i k 6 (by decide) c (by omega) (val_main_v6 (F := Ideal) x) rfl, val_main_v6_apply]; idx_close
  · rw [joined_piece x i k 7 (by decide) c (by omega) (val_main_v7 (F := Ideal) x) rfl, val_main_v7_apply]; idx_close
  · rw [joined_piece x i k 8 (by decide) c (by omega) (val_main_v8 (F := Ideal) x) rfl, val_main_v8_apply]; idx_close

/-- The joined axis as tap row, tap column and channel: (kh, kw, c) ↦ kh * 96 + kw * 32 + c. -/
def e288 : (Fin 3 × Fin 3) × Fin 32 ≃ Fin 288 :=
  (Equiv.prodCongr finProdFinEquiv (Equiv.refl (Fin 32))).trans finProdFinEquiv

theorem e288_val (kh kw : Fin 3) (c : Fin 32) : (e288 ((kh, kw), c)).val = kh.val * 96 + kw.val * 32 + c.val := by
  show c.val + 32 * (kw.val + 3 * kh.val) = kh.val * 96 + kw.val * 32 + c.val
  omega

theorem ref_eq_conv (x : Vec Ideal S16x224x224x32 .f32) (w : Vec Ideal S9216 .f32) (b : Vec Ideal S32 .f32) :
    Cert.ReferenceIdeal.Read.val_main_v14 (F := Ideal) x w b = Cert.Conv.conv x w b := by
  funext i
  rw [val_main_v14_apply, val_main_v11_apply, val_main_v13_apply, val_main_v12_apply]
  show (∑ k : Fin 288, val_main_v9 (F := Ideal) x (lidx_main_v11 i k) * val_main_v10 (F := Ideal) w (ridx_main_v11 i k))
      + b (idx_main_v12 (idx_main_v13 i))
    = (∑ kh : Fin 3, ∑ kw : Fin 3, ∑ c : Fin 32, x (tap (i 0) (i 1) (i 2) kh kw c) * w (wpos (i 3) kh kw c)) + b (ix1 (i 3))
  congr 1
  · rw [← Equiv.sum_comp e288, Fintype.sum_prod_type, Fintype.sum_prod_type]
    refine Finset.sum_congr rfl fun kh _ => Finset.sum_congr rfl fun kw _ => Finset.sum_congr rfl fun c _ => ?_
    rw [joined_apply x i kh.val kw.val kh.isLt kw.isLt c _ (e288_val kh kw c), val_main_v10_apply]
    congr 2
    funext a
    match a with
    | ⟨0, _⟩ =>
      refine Fin.ext ?_
      show (i 3).val * 288 + (e288 ((kh, kw), c)).val = (i 3).val * 288 + kh.val * 96 + kw.val * 32 + c.val
      rw [e288_val]; omega
  · congr 1
    funext a
    match a with
    | ⟨0, _⟩ => rfl

end Cert.ReferenceIdeal.RefConv
end
-- ==== Proof.lean ====
/-
  A 3x3 convolution kernel against its reference, over the extended reals.

  The kernel walks a 16 x 6 grid; at point (b, h) it reads rows 37h .. 37h+38 of image b (37 rows through one window,
  the next two through two more windows on the same array), multiplies, for each of the nine taps, the tap's 37 x 222
  window of pixels by the tap's 32 x 32 weight matrix, adds the nine products and the bias, and writes rows 37h .. 37h+36
  of result b. The reference gathers the nine shifted windows into 288 channels and contracts them against the weights
  viewed as 32 x 288, then adds the bias. Both compute, at every result entry (b, h, w, f),

      sum over kh, kw < 3 and c < 32 of  x[b, h + kh, w + kw, c] * wts[f * 288 + kh * 96 + kw * 32 + c]   +   bias[f]

  (Proof/ConvSpec.lean): the kernel as nine sums of 32 terms added in turn from zero (Proof/KI/StoredAt.lean), the
  reference as one sum of 288 terms (Proof/RefConv.lean); regrouping a finite sum needs only that addition of extended
  reals is commutative and associative, so the precondition is never opened.

  The three frames: the reference's is its run with the result dropped; the kernel's, at the word level and idealized,
  is the pipeline's run over the grid (Proof/K/Frame.lean, Proof/KI/Frame.lean: one text for both float instances),
  where the image array's share is dealt among the three windows that read it. The idealization rewrote nothing, so
  there is nothing to preserve.
-/
import proofs.«117001_j77816217469233_1_alg».proof.Defs
import proofs.«117001_j77816217469233_1_alg».proof.Proof.Gen.Kernel
import proofs.«117001_j77816217469233_1_alg».proof.Proof.Gen.Kernel.Skeleton
import proofs.«117001_j77816217469233_1_alg».proof.Proof.Gen.Kernel.Launch
import proofs.«117001_j77816217469233_1_alg».proof.Proof.Gen.Kernel.Points
import proofs.«117001_j77816217469233_1_alg».proof.Proof.Gen.KernelIdeal
import proofs.«117001_j77816217469233_1_alg».proof.Proof.Gen.KernelIdeal.Skeleton
import proofs.«117001_j77816217469233_1_alg».proof.Proof.Gen.KernelIdeal.Launch
import proofs.«117001_j77816217469233_1_alg».proof.Proof.Gen.KernelIdeal.Points
import proofs.«117001_j77816217469233_1_alg».proof.Proof.Gen.ReferenceIdeal
import proofs.«117001_j77816217469233_1_alg».proof.Proof.Gen.Pre_finite_inputs
import proofs.«117001_j77816217469233_1_alg».proof.Proof.Gen.ReferenceIdeal.Run
import proofs.«117001_j77816217469233_1_alg».proof.Proof.Gen.ReferenceIdeal.Read
import proofs.«117001_j77816217469233_1_alg».proof.Proof.K.Frame
import proofs.«117001_j77816217469233_1_alg».proof.Proof.KI.Final
import proofs.«117001_j77816217469233_1_alg».proof.Proof.RefConv
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Conv.frame m ρ

/-- So does the idealized kernel. -/
theorem frame_kernelIdeal : Cert.frame_KernelIdeal := fun m ρ _ => Cert.KernelIdeal.Conv.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On extended reals both programs end with the convolution of the arguments: the kernel's result array by the
    pipeline's run and the body's arithmetic, the reference's by its run read entry by entry; the arguments agree. -/
theorem algebraic : Cert.algebraic_KernelIdeal_ReferenceIdeal := by
  intro m ρ m' ρ' _ hagree
  refine ⟨fun c => Cert.KernelIdeal.Conv.target m c, Cert.KernelIdeal.Conv.run_value m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v14_eq _ _ _).trans (Cert.ReferenceIdeal.RefConv.ref_eq_conv _ _ _)).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
